-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v24) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x1600000 : Shape := ⟨2, ![2, 1600000]⟩
abbrev S1600000x32 : Shape := ⟨2, ![1600000, 32]⟩
abbrev S160x128 : Shape := ⟨2, ![160, 128]⟩
abbrev S128 : Shape := ⟨1, ![128]⟩
abbrev S128x64 : Shape := ⟨2, ![128, 64]⟩
abbrev S64 : Shape := ⟨1, ![64]⟩
abbrev S128x128 : Shape := ⟨2, ![128, 128]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S1600000x32 : S_.BroadcastsInDim S1600000x32 (![] : Fin 0 → Fin S1600000x32.rank)
  reducesTo_S1600000x32_S_d0_1 : S1600000x32.ReducesTo [0, 1] S_
  bcast_S_S160x128 : S_.BroadcastsInDim S160x128 (![] : Fin 0 → Fin S160x128.rank)
  reducesTo_S160x128_S_d0_1 : S160x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg8 : FVec F S128 .f32) (main_arg9 : FVec F S128x64 .f32) (main_arg10 : FVec F S64 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x64 .f32 := Host.absf main_arg9
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg5 : FVec F S128x64 .f32) (main_arg6 : FVec F S64 .f32) (main_arg7 : FVec F S128x128 .f32) (main_arg8 : FVec F S128 .f32) (main_arg9 : FVec F S128x64 .f32) (main_arg10 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x64 .f32) (main_arg1 : IVec S2x1600000 32) (main_arg2 : FVec F S1600000x32 .f32) (main_arg3 : FVec F S160x128 .f32) (main_arg4 : FVec F S128 .f32) (main_arg5 : FVec F S128x64 .f32) (main_arg6 : FVec F S64 .f32) (main_arg7 : FVec F S128x128 .f32) (main_arg8 : FVec F S128 .f32) (main_arg9 : FVec F S128x64 .f32) (main_arg10 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S1600000x32 .f32 := Host.absf main_arg2
  let main_cst_0 : FVec F S_ .f32 := constant S_ .f32 0x7F800000#32
  let main_v5 : FVec F S1600000x32 .f32 := broadcastInDim S1600000x32 ![] bcast_S_S1600000x32 main_cst_0
  let main_v6 : IVec S1600000x32 1 := cmpf .olt main_v4 main_v5
  let main_c_1 : IVec S_ 1 := constantI S_ 1 1#1
  let main_v7 : IVec S_ 1 := (fun x v => Host.reduce IntOp.andi x v reducesTo_S1600000x32_S_d0_1 h_S_) main_v6 main_c_1
  let main_v8 : IVec S_ 1 := andi main_v3 main_v7
  let main_v9 : FVec F S160x128 .f32 := Host.absf main_arg3
  let main_cst_2 : FVec F S_ .f32 := constant S_ .f32 0x7F800000#32
  let main_v10 : FVec F S160x128 .f32 := broadcastInDim S160x128 ![] bcast_S_S160x128 main_cst_2
  let main_v11 : IVec S160x128 1 := cmpf .olt main_v9 main_v10
  let main_c_3 : IVec S_ 1 := constantI S_ 1 1#1
  let main_v12 : IVec S_ 1 := (fun x v => Host.reduce IntOp.andi x v reducesTo_S160x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S50000x64 : Shape := ⟨2, ![50000, 64]⟩
abbrev S2x1600000 : Shape := ⟨2, ![2, 1600000]⟩
abbrev S1600000x32 : Shape := ⟨2, ![1600000, 32]⟩
abbrev S160x128 : Shape := ⟨2, ![160, 128]⟩
abbrev S128 : Shape := ⟨1, ![128]⟩
abbrev S128x64 : Shape := ⟨2, ![128, 64]⟩
abbrev S64 : Shape := ⟨1, ![64]⟩
abbrev S128x128 : Shape := ⟨2, ![128, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1600000x160 : Shape := ⟨2, ![1600000, 160]⟩
abbrev S6400x160 : Shape := ⟨2, ![6400, 160]⟩
abbrev S6400x64 : Shape := ⟨2, ![6400, 64]⟩
abbrev S6400x128 : Shape := ⟨2, ![6400, 128]⟩
abbrev S1x128 : Shape := ⟨2, ![1, 128]⟩
abbrev S1x64 : Shape := ⟨2, ![1, 64]⟩
abbrev S50000x128 : Shape := ⟨2, ![50000, 128]⟩
abbrev S5000x128 : Shape := ⟨2, ![5000, 128]⟩
abbrev S5000x64 : Shape := ⟨2, ![5000, 64]⟩

abbrev nBuf : Space → Nat
  | .hbm => 41
  | .vmem => 16
  | .smem => 0
  | _ => 0

abbrev bufTy : (tb : Table) → Fin (tcTables nBuf tb) → BufTy
  | .hbm, ⟨0, _⟩ => ⟨S50000x64, .f32⟩
  | .hbm, ⟨1, _⟩ => ⟨S2x1600000, .i32⟩
  | .hbm, ⟨2, _⟩ => ⟨S1600000x32, .f32⟩
  | .hbm, ⟨3, _⟩ => ⟨S160x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x64, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x64, .f32⟩
  | .hbm, ⟨33, _⟩ => ⟨S1600000x160, .f32⟩
  | .hbm, ⟨34, _⟩ => ⟨S1600000x64, .f32⟩
  | .hbm, ⟨35, _⟩ => ⟨S_, .f32⟩
  | .hbm, ⟨36, _⟩ => ⟨S50000x64, .f32⟩
  | .hbm, ⟨37, _⟩ => ⟨S1600000x1, .i32⟩
  | .hbm, ⟨38, _⟩ => ⟨S50000x64, .f32⟩
  | .hbm, ⟨39, _⟩ => ⟨S50000x128, .f32⟩
  | .hbm, ⟨40, _⟩ => ⟨S50000x64, .f32⟩
  | .local _ .vmem, ⟨0, _⟩ => ⟨S6400x160, .f32⟩
  | .local _ .vmem, ⟨1, _⟩ => ⟨S6400x160, .f32⟩
  | .local _ .vmem, ⟨2, _⟩ => ⟨S160x128, .f32⟩
  | .local _ .vmem, ⟨3, _⟩ => ⟨S128, .f32⟩
  | .local _ .vmem, ⟨4, _⟩ => ⟨S128x64, .f32⟩
  | .local _ .vmem, ⟨5, _⟩ => ⟨S64, .f32⟩
  | .local _ .vmem, ⟨6, _⟩ => ⟨S6400x64, .f32⟩
  | .local _ .vmem, ⟨7, _⟩ => ⟨S6400x64, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S128, .f32⟩
  | .local _ .vmem, ⟨12, _⟩ => ⟨S128x64, .f32⟩
  | .local _ .vmem, ⟨13, _⟩ => ⟨S64, .f32⟩
  | .local _ .vmem, ⟨14, _⟩ => ⟨S5000x64, .f32⟩
  | .local _ .vmem, ⟨15, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x160 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S160x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S6400x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x64_S1600000x64_S1600000x32_S1600000x160_d1 : Shape.Concatenates [S1600000x64, S1600000x64, S1600000x32] S1600000x160 1
  inb_S6400x160_S6400x160_0_0 : ∀ a, (![0, 0] : Fin 2 → Nat) a + S6400x160.size a ≤ S6400x160.size a
  h_S6400x160 : 0 < S6400x160.numel
  shapeCasts_S6400x160_S6400x160 : S6400x160.ShapeCasts S6400x160
  bitsLt_bf16_f32 : FTy.bits .bf16 < FTy.bits .f32
  inb_S160x128_S160x128_0_0 : ∀ a, (![0, 0] : Fin 2 → Nat) a + S160x128.size a ≤ S160x128.size a
  h_S160x128 : 0 < S160x128.numel
  inb_S128_S128_0 : ∀ a, (![0] : Fin 1 → Nat) a + S128.size a ≤ S128.size a
  h_S128 : 0 < S128.numel
  shapeCasts_S128_S1x128 : S128.ShapeCasts S1x128
  broadcasts_S1x128_S6400x128 : S1x128.Broadcasts S6400x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S6400x64 : S1x64.Broadcasts S6400x64
  inb_S6400x64_S6400x64_0_0 : ∀ a, (![0, 0] : Fin 2 → Nat) a + S6400x64.size a ≤ S6400x64.size a
  h_S6400x64 : 0 < S6400x64.numel
  bcast_S_S50000x64 : S_.BroadcastsInDim S50000x64 (![] : Fin 0 → Fin S50000x64.rank)
  concatenates_S50000x64_S50000x64_S50000x128_d1 : Shape.Concatenates [S50000x64, S50000x64] S50000x128 1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  broadcasts_S1x128_S5000x128 : S1x128.Broadcasts S5000x128
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  gather_S50000x64_S1600000x1_S1600000x64_1_0_n_n_0_1_164_wf : GatherDims.WF S50000x64 S1600000x1 S1600000x64 [1] [0] [] [0] [] 1 ![1, 64]
  dot_S6400x160_S160x128_S6400x128_1_0_0_1_n_n_wf : DotDims.WF S6400x160 S160x128 S6400x128 [1] [0] [0] [1] [] []
  dot_S6400x128_S128x64_S6400x64_1_0_0_1_n_n_wf : DotDims.WF S6400x128 S128x64 S6400x64 [1] [0] [0] [1] [] []
  scatter_S50000x64_S1600000x1_S1600000x64_1_0_0_1_wf : ScatterDims.WF S50000x64 S1600000x1 S1600000x64 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x160.size a ≤ S1600000x160.size a
  hwx0_0 : ∀ i : grid0.Coords, EltTy.bits .f32 = 32 ∨ (Rect.block (s := S1600000x160) S6400x160.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S160x128.size a ≤ S160x128.size a
  hwx0_1 : ∀ i : grid0.Coords, EltTy.bits .f32 = 32 ∨ (Rect.block (s := S160x128) S160x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S6400x64.size a ≤ S1600000x64.size a
  hwx0_5 : ∀ i : grid0.Coords, EltTy.bits .f32 = 32 ∨ (Rect.block (s := S1600000x64) S6400x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)

variable [Facts₀]

def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def dot_S6400x160_S160x128_S6400x128_1_0_0_1_n_n : DotDims S6400x160 S160x128 S6400x128 where
  lhsContracting := [1]
  rhsContracting := [0]
  lhsNonContracting := [0]
  rhsNonContracting := [1]
  lhsBatch := []
  rhsBatch := []
  wf := dot_S6400x160_S160x128_S6400x128_1_0_0_1_n_n_wf
def dot_S6400x128_S128x64_S6400x64_1_0_0_1_n_n : DotDims S6400x128 S128x64 S6400x64 where
  lhsContracting := [1]
  rhsContracting := [0]
  lhsNonContracting := [0]
  rhsNonContracting := [1]
  lhsBatch := []
  rhsBatch := []
  wf := dot_S6400x128_S128x64_S6400x64_1_0_0_1_n_n_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v18) S6400x160.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S160x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S6400x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v23) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x1600000 : Shape := ⟨2, ![2, 1600000]⟩
abbrev S1600000x32 : Shape := ⟨2, ![1600000, 32]⟩
abbrev S160x128 : Shape := ⟨2, ![160, 128]⟩
abbrev S128 : Shape := ⟨1, ![128]⟩
abbrev S128x64 : Shape := ⟨2, ![128, 64]⟩
abbrev S64 : Shape := ⟨1, ![64]⟩
abbrev S128x128 : Shape := ⟨2, ![128, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1600000x160 : Shape := ⟨2, ![1600000, 160]⟩
abbrev S1600000x128 : Shape := ⟨2, ![1600000, 128]⟩
abbrev S1x128 : Shape := ⟨2, ![1, 128]⟩
abbrev S1x64 : Shape := ⟨2, ![1, 64]⟩
abbrev S50000x128 : Shape := ⟨2, ![50000, 128]⟩

abbrev nBuf : Space → Nat
  | .hbm => 61
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x1600000, .i32⟩
  | .hbm, ⟨2, _⟩ => ⟨S1600000x32, .f32⟩
  | .hbm, ⟨3, _⟩ => ⟨S160x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x64, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x64, .f32⟩
  | .hbm, ⟨33, _⟩ => ⟨S1600000x160, .f32⟩
  | .hbm, ⟨34, _⟩ => ⟨S1600000x128, .f32⟩
  | .hbm, ⟨35, _⟩ => ⟨S1x128, .f32⟩
  | .hbm, ⟨36, _⟩ => ⟨S1600000x128, .f32⟩
  | .hbm, ⟨37, _⟩ => ⟨S1600000x128, .f32⟩
  | .hbm, ⟨38, _⟩ => ⟨S_, .f32⟩
  | .hbm, ⟨39, _⟩ => ⟨S1600000x128, .f32⟩
  | .hbm, ⟨40, _⟩ => ⟨S1600000x128, .f32⟩
  | .hbm, ⟨41, _⟩ => ⟨S1600000x64, .f32⟩
  | .hbm, ⟨42, _⟩ => ⟨S1x64, .f32⟩
  | .hbm, ⟨43, _⟩ => ⟨S1600000x64, .f32⟩
  | .hbm, ⟨44, _⟩ => ⟨S1600000x64, .f32⟩
  | .hbm, ⟨45, _⟩ => ⟨S_, .f32⟩
  | .hbm, ⟨46, _⟩ => ⟨S50000x64, .f32⟩
  | .hbm, ⟨47, _⟩ => ⟨S1600000x1, .i32⟩
  | .hbm, ⟨48, _⟩ => ⟨S50000x64, .f32⟩
  | .hbm, ⟨49, _⟩ => ⟨S50000x128, .f32⟩
  | .hbm, ⟨50, _⟩ => ⟨S50000x128, .f32⟩
  | .hbm, ⟨51, _⟩ => ⟨S1x128, .f32⟩
  | .hbm, ⟨52, _⟩ => ⟨S50000x128, .f32⟩
  | .hbm, ⟨53, _⟩ => ⟨S50000x128, .f32⟩
  | .hbm, ⟨54, _⟩ => ⟨S_, .f32⟩
  | .hbm, ⟨55, _⟩ => ⟨S50000x128, .f32⟩
  | .hbm, ⟨56, _⟩ => ⟨S50000x128, .f32⟩
  | .hbm, ⟨57, _⟩ => ⟨S50000x64, .f32⟩
  | .hbm, ⟨58, _⟩ => ⟨S1x64, .f32⟩
  | .hbm, ⟨59, _⟩ => ⟨S50000x64, .f32⟩
  | .hbm, ⟨60, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call0_cst : Ref sig .tc := ⟨.hbm, 38, rfl⟩
abbrev main_call0_v0 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_call1_cst : Ref sig .tc := ⟨.hbm, 54, rfl⟩
abbrev main_call1_v0 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x64_S1600000x64_S1600000x32_S1600000x160_d1 : Shape.Concatenates [S1600000x64, S1600000x64, S1600000x32] S1600000x160 1
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  bcast_S_S1600000x128 : S_.BroadcastsInDim S1600000x128 (![] : Fin 0 → Fin S1600000x128.rank)
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S50000x64 : S_.BroadcastsInDim S50000x64 (![] : Fin 0 → Fin S50000x64.rank)
  concatenates_S50000x64_S50000x64_S50000x128_d1 : Shape.Concatenates [S50000x64, S50000x64] S50000x128 1
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S1x64_S50000x64_0_1 : S1x64.BroadcastsInDim S50000x64 (![0, 1] : Fin 2 → Fin S50000x64.rank)
  gather_S50000x64_S1600000x1_S1600000x64_1_0_n_n_0_1_164_wf : GatherDims.WF S50000x64 S1600000x1 S1600000x64 [1] [0] [] [0] [] 1 ![1, 64]
  dot_S1600000x160_S160x128_S1600000x128_1_0_0_1_n_n_wf : DotDims.WF S1600000x160 S160x128 S1600000x128 [1] [0] [0] [1] [] []
  dot_S1600000x128_S128x64_S1600000x64_1_0_0_1_n_n_wf : DotDims.WF S1600000x128 S128x64 S1600000x64 [1] [0] [0] [1] [] []
  scatter_S50000x64_S1600000x1_S1600000x64_1_0_0_1_wf : ScatterDims.WF S50000x64 S1600000x1 S1600000x64 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def dot_S1600000x160_S160x128_S1600000x128_1_0_0_1_n_n : DotDims S1600000x160 S160x128 S1600000x128 where
  lhsContracting := [1]
  rhsContracting := [0]
  lhsNonContracting := [0]
  rhsNonContracting := [1]
  lhsBatch := []
  rhsBatch := []
  wf := dot_S1600000x160_S160x128_S1600000x128_1_0_0_1_n_n_wf
def dot_S1600000x128_S128x64_S1600000x64_1_0_0_1_n_n : DotDims S1600000x128 S128x64 S1600000x64 where
  lhsContracting := [1]
  rhsContracting := [0]
  lhsNonContracting := [0]
  rhsNonContracting := [1]
  lhsBatch := []
  rhsBatch := []
  wf := dot_S1600000x128_S128x64_S1600000x64_1_0_0_1_n_n_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.EdgeStageW.lean ====
/-
  The edge stage: one grid point takes 6400 rows of the 160-wide edge inputs, the two weight
  matrices and the two bias rows, and stores 6400 rows of the 64-wide edge embedding, the
  two-layer perceptron of those rows. The point's inputs are left as they were.
-/
import proofs.«146063_j29343216566653_1_alg».proof.Proof.Gen.Kernel.Launch
import proofs.«146063_j29343216566653_1_alg».proof.Proof.Gen.Kernel.Skeleton
import proofs.«146063_j29343216566653_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Edge

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at grid point `t`, cut out of the array the stage finds on entry. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds that window's block at every grid point: where the block is
    not fetched anew its index has not moved since the last fetch, and the body leaves it in place. -/
theorem held0_of {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem held1_of {c : Dev nD} (dat : Dat τ (Elt F) Unit ℕ (UR sig nD τ) ℕ cfg0 c) (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem held2_of {c : Dev nD} (dat : Dat τ (Elt F) Unit ℕ (UR sig nD τ) ℕ cfg0 c) (hA : dat.A 2 = V c (Pipeline.arrRef spec0 2))
    (hafter : ∀ t, dat.after 2 t = blockAt V c 2 t) (t : Fin cfg0.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem held3_of {c : Dev nD} (dat : Dat τ (Elt F) Unit ℕ (UR sig nD τ) ℕ cfg0 c) (hA : dat.A 3 = V c (Pipeline.arrRef spec0 3))
    (hafter : ∀ t, dat.after 3 t = blockAt V c 3 t) (t : Fin cfg0.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem held4_of {c : Dev nD} (dat : Dat τ (Elt F) Unit ℕ (UR sig nD τ) ℕ cfg0 c) (hA : dat.A 4 = V c (Pipeline.arrRef spec0 4))
    (hafter : ∀ t, dat.after 4 t = blockAt V c 4 t) (t : Fin cfg0.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

end

/-! ## What one grid point stores -/

abbrev rX : Rect S6400x160 := Rect.unit (s := S6400x160) ![0, 0] S6400x160.size inb_S6400x160_S6400x160_0_0
abbrev rW1 : Rect S160x128 := Rect.unit (s := S160x128) ![0, 0] S160x128.size inb_S160x128_S160x128_0_0
abbrev rB1 : Rect S128 := Rect.unit (s := S128) ![0] S128.size inb_S128_S128_0
abbrev rW2 : Rect S128x64 := Rect.unit (s := S128x64) ![0, 0] S128x64.size inb_S128x64_S128x64_0_0
abbrev rB2 : Rect S64 := Rect.unit (s := S64) ![0] S64.size inb_S64_S64_0
abbrev rOut : Rect S6400x64 := Rect.unit (s := S6400x64) ![0, 0] S6400x64.size inb_S6400x64_S6400x64_0_0

/-- The output block after the body: its one store, over the whole block, of the perceptron of the five loaded blocks. -/
def stored (x : Vec F S6400x160 .f32) (w1 : Vec F S160x128 .f32) (b1 : Vec F S128 .f32) (w2 : Vec F S128x64 .f32) (b2 : Vec F S64 .f32) :
    Vec F S6400x64 .f32 :=
  View.canon [⟨rOut, k0_pay1 (View.ld x rX) (View.ld w1 rW1) (View.ld b1 rB1) (View.ld w2 rW2) (View.ld b2 rB2)⟩]

/-- The one store covers the output block. -/
theorem stored_cover (p : Vec F S6400x64 .f32) (y : S6400x64.Idx) :
    ∃ pc ∈ ([⟨rOut, p⟩] : List (View.Piece (Elt F) S6400x64 .f32)), y ∈ pc.1.set :=
  View.cover_of_tiled [⟨rOut, p⟩] S6400x64.size (by rfl) y

set_option maxHeartbeats 1000000 in
/-- The body on whole staging buffers, the five inputs' at contents `x w1 b1 w2 b2` and the output's at anything:
    it runs to the end, leaves the inputs' as they were and the output's at `stored x w1 b1 w2 b2`. -/
theorem body_triple (c : Dev nD) (E : Set ℕ) (i : grid0.Coords) (a1 : Memref sig .tc .vmem S6400x160 .f32) (h1 : a1.IsWhole) (a2 : Memref sig .tc .vmem S160x128 .f32) (h2 : a2.IsWhole)
    (a3 : Memref sig .tc .vmem S128 .f32) (h3 : a3.IsWhole) (a4 : Memref sig .tc .vmem S128x64 .f32) (h4 : a4.IsWhole)
    (a5 : Memref sig .tc .vmem S64 .f32) (h5 : a5.IsWhole) (a6 : Memref sig .tc .vmem S6400x64 .f32) (h6 : a6.IsWhole)
    (x : Vec F S6400x160 .f32) (w1 : Vec F S160x128 .f32) (b1 : Vec F S128 .f32) (w2 : Vec F S128x64 .f32) (b2 : Vec F S64 .f32)
    (K : PUnit → sProp 𝕄) :
    iprop(owns (c : Thread nD τ) a1 fullShare x ∗ owns (c : Thread nD τ) a2 fullShare w1 ∗ owns (c : Thread nD τ) a3 fullShare b1
        ∗ owns (c : Thread nD τ) a4 fullShare w2 ∗ owns (c : Thread nD τ) a5 fullShare b2 ∗ (∃ d, owns (c : Thread nD τ) a6 fullShare d)
        ∗ (iprop(owns (c : Thread nD τ) a1 fullShare x ∗ owns (c : Thread nD τ) a2 fullShare w1 ∗ owns (c : Thread nD τ) a3 fullShare b1
            ∗ owns (c : Thread nD τ) a4 fullShare w2 ∗ owns (c : Thread nD τ) a5 fullShare b2
            ∗ owns (c : Thread nD τ) a6 fullShare (stored x w1 b1 w2 b2)) -∗ K ⟨⟩))
      ⊢ wp frame (wpE (defs₀ (F := F)) Variants.none c none) E (cc0__mlp2_kernel i a1 h1 a2 h2 a3 h3 a4 h4 a5 h5 a6 h6) K := by
  simp only [cc0__mlp2_kernel_eq_skeleton]; unfold cc0__mlp2_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (stored_cover _)

section
variable (V : (c : Dev nD) → (b : Ref sig .tc) → Buf (Elt F) ((c : Thread nD τ).loc b))

/-! ## The stage's record: what every window's buffer holds after the body at each point -/

/-- On core `c`: the arrays as the stage finds them; after the body at point `t` each input buffer at its block, the
    output buffer at `stored` of the five input blocks; nothing owed, full shares, nothing else touched. -/
def record (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => stored (blockAt V c 0 t) (blockAt V c 1 t) (blockAt V c 2 t) (blockAt V c 3 t) (blockAt V c 4 t)
  Φ _ := Pipeline.ΦA spec0 c
  q _ := fullShare
  owed _ := 0

theorem record_A (c : Dev nD) (w : Fin cfg0.W) : (record V c).A w = V c (Pipeline.arrRef spec0 w) := by
  dsimp only [record]

theorem after_0 (c : Dev nD) (t : Fin cfg0.N) : (record V c).after 0 t = blockAt V c 0 t := by dsimp only [record]
theorem after_1 (c : Dev nD) (t : Fin cfg0.N) : (record V c).after 1 t = blockAt V c 1 t := by dsimp only [record]
theorem after_2 (c : Dev nD) (t : Fin cfg0.N) : (record V c).after 2 t = blockAt V c 2 t := by dsimp only [record]
theorem after_3 (c : Dev nD) (t : Fin cfg0.N) : (record V c).after 3 t = blockAt V c 3 t := by dsimp only [record]
theorem after_4 (c : Dev nD) (t : Fin cfg0.N) : (record V c).after 4 t = blockAt V c 4 t := by dsimp only [record]
theorem after_5 (c : Dev nD) (t : Fin cfg0.N) : (record V c).after 5 t
    = stored (blockAt V c 0 t) (blockAt V c 1 t) (blockAt V c 2 t) (blockAt V c 3 t) (blockAt V c 4 t) := by dsimp only [record]

theorem before_0 (c : Dev nD) (t : Fin cfg0.N) (d) : (record V c).before 0 t d = blockAt V c 0 t :=
  held0_of V (record V c) (record_A V c 0) (after_0 V c) t d
theorem before_1 (c : Dev nD) (t : Fin cfg0.N) (d) : (record V c).before 1 t d = blockAt V c 1 t :=
  held1_of V (record V c) (record_A V c 1) (after_1 V c) t d
theorem before_2 (c : Dev nD) (t : Fin cfg0.N) (d) : (record V c).before 2 t d = blockAt V c 2 t :=
  held2_of V (record V c) (record_A V c 2) (after_2 V c) t d
theorem before_3 (c : Dev nD) (t : Fin cfg0.N) (d) : (record V c).before 3 t d = blockAt V c 3 t :=
  held3_of V (record V c) (record_A V c 3) (after_3 V c) t d
theorem before_4 (c : Dev nD) (t : Fin cfg0.N) (d) : (record V c).before 4 t d = blockAt V c 4 t :=
  held4_of V (record V c) (record_A V c 4) (after_4 V c) t d

/-! ## The body at a grid point, as the pipeline calls it -/

def callPre (c : Dev nD) (t : Fin cfg0.N) : sProp 𝕄 :=
  iprop((record V c).Φ t.castSucc ∗ (record V c).owesAt () t.castSucc
    ∗ (∃ d, owns (c : Thread nD τ) (st0_0 t) fullShare ((record V c).before 0 t d))
    ∗ (∃ d, owns (c : Thread nD τ) (st0_1 t) fullShare ((record V c).before 1 t d))
    ∗ (∃ d, owns (c : Thread nD τ) (st0_2 t) fullShare ((record V c).before 2 t d))
    ∗ (∃ d, owns (c : Thread nD τ) (st0_3 t) fullShare ((record V c).before 3 t d))
    ∗ (∃ d, owns (c : Thread nD τ) (st0_4 t) fullShare ((record V c).before 4 t d))
    ∗ (∃ d, owns (c : Thread nD τ) (st0_5 t) fullShare ((record V c).before 5 t d)))

def callPost (c : Dev nD) (t : Fin cfg0.N) : sProp 𝕄 :=
  iprop((record V c).Φ t.succ ∗ (record V c).owesAt () t.succ
    ∗ owns (c : Thread nD τ) (st0_0 t) fullShare ((record V c).after 0 t)
    ∗ owns (c : Thread nD τ) (st0_1 t) fullShare ((record V c).after 1 t)
    ∗ owns (c : Thread nD τ) (st0_2 t) fullShare ((record V c).after 2 t)
    ∗ owns (c : Thread nD τ) (st0_3 t) fullShare ((record V c).after 3 t)
    ∗ owns (c : Thread nD τ) (st0_4 t) fullShare ((record V c).after 4 t)
    ∗ owns (c : Thread nD τ) (st0_5 t) fullShare ((record V c).after 5 t))

theorem call_sound (c : Dev nD) (t : Fin cfg0.N) :
    callPre V c t ⊢ wp frame (wpE (defs₀ (F := F)) Variants.none c none) Set.univ (bodyAt0 t) (fun _ => callPost V c t) := by
  unfold callPre callPost bodyAt0
  simp only [before_0, before_1, before_2, before_3, before_4]
  rw [show (record V c).Φ t.succ = (record V c).Φ t.castSucc from rfl,
    show (record V c).owesAt () t.succ = (record V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (body_triple c Set.univ _ _ _ _ _ _ _ _ _ _ _ _ _ (blockAt V c 0 t) (blockAt V c 1 t) (blockAt V c 2 t) (blockAt V c 3 t) (blockAt V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body meets what the pipeline asks of it at every grid point. -/
theorem obligation (c : Dev nD) : BodyObligation (record (F := F) V c) (defs₀ (F := F)) Variants.none () Set.univ := fun t => by
  rw [bigSep_W0, bigSep_W0]
  exact call_sound V c t

end

end Cert.Kernel.Edge

end
-- ==== Proof.NodeStageW.lean ====
/-
  The node stage: one grid point takes 5000 rows of the 128-wide node inputs, the two weight
  matrices and the two bias rows, and stores 5000 rows of the 64-wide node embedding, the
  two-layer perceptron of those rows. The point's inputs are left as they were.
-/
import proofs.«146063_j29343216566653_1_alg».proof.Proof.Gen.Kernel.Launch
import proofs.«146063_j29343216566653_1_alg».proof.Proof.Gen.Kernel.Skeleton
import proofs.«146063_j29343216566653_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Node

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at grid point `t`, cut out of the array the stage finds on entry. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds that window's block at every grid point: where the block is
    not fetched anew its index has not moved since the last fetch, and the body leaves it in place. -/
theorem held0_of {c : Dev nD} (dat : Dat τ (Elt F) Unit ℕ (UR sig nD τ) ℕ cfg1 c) (hA : dat.A 0 = V c (Pipeline.arrRef spec1 0))
    (hafter : ∀ t, dat.after 0 t = blockAt V c 0 t) (t : Fin cfg1.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem held1_of {c : Dev nD} (dat : Dat τ (Elt F) Unit ℕ (UR sig nD τ) ℕ cfg1 c) (hA : dat.A 1 = V c (Pipeline.arrRef spec1 1))
    (hafter : ∀ t, dat.after 1 t = blockAt V c 1 t) (t : Fin cfg1.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem held2_of {c : Dev nD} (dat : Dat τ (Elt F) Unit ℕ (UR sig nD τ) ℕ cfg1 c) (hA : dat.A 2 = V c (Pipeline.arrRef spec1 2))
    (hafter : ∀ t, dat.after 2 t = blockAt V c 2 t) (t : Fin cfg1.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem held3_of {c : Dev nD} (dat : Dat τ (Elt F) Unit ℕ (UR sig nD τ) ℕ cfg1 c) (hA : dat.A 3 = V c (Pipeline.arrRef spec1 3))
    (hafter : ∀ t, dat.after 3 t = blockAt V c 3 t) (t : Fin cfg1.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem held4_of {c : Dev nD} (dat : Dat τ (Elt F) Unit ℕ (UR sig nD τ) ℕ cfg1 c) (hA : dat.A 4 = V c (Pipeline.arrRef spec1 4))
    (hafter : ∀ t, dat.after 4 t = blockAt V c 4 t) (t : Fin cfg1.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

end

/-! ## What one grid point stores -/

abbrev rX : Rect S5000x128 := Rect.unit (s := S5000x128) ![0, 0] S5000x128.size inb_S5000x128_S5000x128_0_0
abbrev rW1 : Rect S128x128 := Rect.unit (s := S128x128) ![0, 0] S128x128.size inb_S128x128_S128x128_0_0
abbrev rB1 : Rect S128 := Rect.unit (s := S128) ![0] S128.size inb_S128_S128_0
abbrev rW2 : Rect S128x64 := Rect.unit (s := S128x64) ![0, 0] S128x64.size inb_S128x64_S128x64_0_0
abbrev rB2 : Rect S64 := Rect.unit (s := S64) ![0] S64.size inb_S64_S64_0
abbrev rOut : Rect S5000x64 := Rect.unit (s := S5000x64) ![0, 0] S5000x64.size inb_S5000x64_S5000x64_0_0

/-- The output block after the body: its one store, over the whole block, of the perceptron of the five loaded blocks. -/
def stored (x : Vec F S5000x128 .f32) (w1 : Vec F S128x128 .f32) (b1 : Vec F S128 .f32) (w2 : Vec F S128x64 .f32) (b2 : Vec F S64 .f32) :
    Vec F S5000x64 .f32 :=
  View.canon [⟨rOut, k1_pay1 (View.ld x rX) (View.ld w1 rW1) (View.ld b1 rB1) (View.ld w2 rW2) (View.ld b2 rB2)⟩]

/-- The one store covers the output block. -/
theorem stored_cover (p : Vec F S5000x64 .f32) (y : S5000x64.Idx) :
    ∃ pc ∈ ([⟨rOut, p⟩] : List (View.Piece (Elt F) S5000x64 .f32)), y ∈ pc.1.set :=
  View.cover_of_tiled [⟨rOut, p⟩] S5000x64.size (by rfl) y

set_option maxHeartbeats 1000000 in
/-- The body on whole staging buffers, the five inputs' at contents `x w1 b1 w2 b2` and the output's at anything:
    it runs to the end, leaves the inputs' as they were and the output's at `stored x w1 b1 w2 b2`. -/
theorem body_triple (c : Dev nD) (E : Set ℕ) (i : grid1.Coords) (a1 : Memref sig .tc .vmem S5000x128 .f32) (h1 : a1.IsWhole) (a2 : Memref sig .tc .vmem S128x128 .f32) (h2 : a2.IsWhole)
    (a3 : Memref sig .tc .vmem S128 .f32) (h3 : a3.IsWhole) (a4 : Memref sig .tc .vmem S128x64 .f32) (h4 : a4.IsWhole)
    (a5 : Memref sig .tc .vmem S64 .f32) (h5 : a5.IsWhole) (a6 : Memref sig .tc .vmem S5000x64 .f32) (h6 : a6.IsWhole)
    (x : Vec F S5000x128 .f32) (w1 : Vec F S128x128 .f32) (b1 : Vec F S128 .f32) (w2 : Vec F S128x64 .f32) (b2 : Vec F S64 .f32)
    (K : PUnit → sProp 𝕄) :
    iprop(owns (c : Thread nD τ) a1 fullShare x ∗ owns (c : Thread nD τ) a2 fullShare w1 ∗ owns (c : Thread nD τ) a3 fullShare b1
        ∗ owns (c : Thread nD τ) a4 fullShare w2 ∗ owns (c : Thread nD τ) a5 fullShare b2 ∗ (∃ d, owns (c : Thread nD τ) a6 fullShare d)
        ∗ (iprop(owns (c : Thread nD τ) a1 fullShare x ∗ owns (c : Thread nD τ) a2 fullShare w1 ∗ owns (c : Thread nD τ) a3 fullShare b1
            ∗ owns (c : Thread nD τ) a4 fullShare w2 ∗ owns (c : Thread nD τ) a5 fullShare b2
            ∗ owns (c : Thread nD τ) a6 fullShare (stored x w1 b1 w2 b2)) -∗ K ⟨⟩))
      ⊢ wp frame (wpE (defs₀ (F := F)) Variants.none c none) E (cc1__mlp2_kernel i a1 h1 a2 h2 a3 h3 a4 h4 a5 h5 a6 h6) K := by
  simp only [cc1__mlp2_kernel_eq_skeleton]; unfold cc1__mlp2_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (stored_cover _)

section
variable (V : (c : Dev nD) → (b : Ref sig .tc) → Buf (Elt F) ((c : Thread nD τ).loc b))

/-! ## The stage's record: what every window's buffer holds after the body at each point -/

/-- On core `c`: the arrays as the stage finds them; after the body at point `t` each input buffer at its block, the
    output buffer at `stored` of the five input blocks; nothing owed, full shares, nothing else touched. -/
def record (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => stored (blockAt V c 0 t) (blockAt V c 1 t) (blockAt V c 2 t) (blockAt V c 3 t) (blockAt V c 4 t)
  Φ _ := Pipeline.ΦA spec1 c
  q _ := fullShare
  owed _ := 0

theorem record_A (c : Dev nD) (w : Fin cfg1.W) : (record V c).A w = V c (Pipeline.arrRef spec1 w) := by
  dsimp only [record]

theorem after_0 (c : Dev nD) (t : Fin cfg1.N) : (record V c).after 0 t = blockAt V c 0 t := by dsimp only [record]
theorem after_1 (c : Dev nD) (t : Fin cfg1.N) : (record V c).after 1 t = blockAt V c 1 t := by dsimp only [record]
theorem after_2 (c : Dev nD) (t : Fin cfg1.N) : (record V c).after 2 t = blockAt V c 2 t := by dsimp only [record]
theorem after_3 (c : Dev nD) (t : Fin cfg1.N) : (record V c).after 3 t = blockAt V c 3 t := by dsimp only [record]
theorem after_4 (c : Dev nD) (t : Fin cfg1.N) : (record V c).after 4 t = blockAt V c 4 t := by dsimp only [record]
theorem after_5 (c : Dev nD) (t : Fin cfg1.N) : (record V c).after 5 t
    = stored (blockAt V c 0 t) (blockAt V c 1 t) (blockAt V c 2 t) (blockAt V c 3 t) (blockAt V c 4 t) := by dsimp only [record]

theorem before_0 (c : Dev nD) (t : Fin cfg1.N) (d) : (record V c).before 0 t d = blockAt V c 0 t :=
  held0_of V (record V c) (record_A V c 0) (after_0 V c) t d
theorem before_1 (c : Dev nD) (t : Fin cfg1.N) (d) : (record V c).before 1 t d = blockAt V c 1 t :=
  held1_of V (record V c) (record_A V c 1) (after_1 V c) t d
theorem before_2 (c : Dev nD) (t : Fin cfg1.N) (d) : (record V c).before 2 t d = blockAt V c 2 t :=
  held2_of V (record V c) (record_A V c 2) (after_2 V c) t d
theorem before_3 (c : Dev nD) (t : Fin cfg1.N) (d) : (record V c).before 3 t d = blockAt V c 3 t :=
  held3_of V (record V c) (record_A V c 3) (after_3 V c) t d
theorem before_4 (c : Dev nD) (t : Fin cfg1.N) (d) : (record V c).before 4 t d = blockAt V c 4 t :=
  held4_of V (record V c) (record_A V c 4) (after_4 V c) t d

/-! ## The body at a grid point, as the pipeline calls it -/

def callPre (c : Dev nD) (t : Fin cfg1.N) : sProp 𝕄 :=
  iprop((record V c).Φ t.castSucc ∗ (record V c).owesAt () t.castSucc
    ∗ (∃ d, owns (c : Thread nD τ) (st1_0 t) fullShare ((record V c).before 0 t d))
    ∗ (∃ d, owns (c : Thread nD τ) (st1_1 t) fullShare ((record V c).before 1 t d))
    ∗ (∃ d, owns (c : Thread nD τ) (st1_2 t) fullShare ((record V c).before 2 t d))
    ∗ (∃ d, owns (c : Thread nD τ) (st1_3 t) fullShare ((record V c).before 3 t d))
    ∗ (∃ d, owns (c : Thread nD τ) (st1_4 t) fullShare ((record V c).before 4 t d))
    ∗ (∃ d, owns (c : Thread nD τ) (st1_5 t) fullShare ((record V c).before 5 t d)))

def callPost (c : Dev nD) (t : Fin cfg1.N) : sProp 𝕄 :=
  iprop((record V c).Φ t.succ ∗ (record V c).owesAt () t.succ
    ∗ owns (c : Thread nD τ) (st1_0 t) fullShare ((record V c).after 0 t)
    ∗ owns (c : Thread nD τ) (st1_1 t) fullShare ((record V c).after 1 t)
    ∗ owns (c : Thread nD τ) (st1_2 t) fullShare ((record V c).after 2 t)
    ∗ owns (c : Thread nD τ) (st1_3 t) fullShare ((record V c).after 3 t)
    ∗ owns (c : Thread nD τ) (st1_4 t) fullShare ((record V c).after 4 t)
    ∗ owns (c : Thread nD τ) (st1_5 t) fullShare ((record V c).after 5 t))

theorem call_sound (c : Dev nD) (t : Fin cfg1.N) :
    callPre V c t ⊢ wp frame (wpE (defs₀ (F := F)) Variants.none c none) Set.univ (bodyAt1 t) (fun _ => callPost V c t) := by
  unfold callPre callPost bodyAt1
  simp only [before_0, before_1, before_2, before_3, before_4]
  rw [show (record V c).Φ t.succ = (record V c).Φ t.castSucc from rfl,
    show (record V c).owesAt () t.succ = (record V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (body_triple c Set.univ _ _ _ _ _ _ _ _ _ _ _ _ _ (blockAt V c 0 t) (blockAt V c 1 t) (blockAt V c 2 t) (blockAt V c 3 t) (blockAt V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body meets what the pipeline asks of it at every grid point. -/
theorem obligation (c : Dev nD) : BodyObligation (record (F := F) V c) (defs₀ (F := F)) Variants.none () Set.univ := fun t => by
  rw [bigSep_W1, bigSep_W1]
  exact call_sound V c t

end

end Cert.Kernel.Node

end
-- ==== Proof.WholeW.lean ====
/-
  The whole program as four items: the host operations that build the edge inputs, the edge stage,
  the host operations that sum the edge embeddings into their source nodes and join them to the node
  features, and the node stage. Between two items every buffer outside the kernels' scratch memory
  holds a named value: the launch memory, then what each stretch of host operations computes from it,
  then, after a stage, the same except that the stage's output array holds what the stage's write-backs
  leave. Every weakly fair execution ends, faulting nowhere, with every such buffer at the last of
  these values.
-/
import proofs.«146063_j29343216566653_1_alg».proof.Proof.EdgeStageW
import proofs.«146063_j29343216566653_1_alg».proof.Proof.NodeStageW
import proofs.«146063_j29343216566653_1_alg».proof.Proof.Gen.Kernel.Regions

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' values between items -/

/-- On entry to the edge stage: the launch memory after the first stretch of host operations. -/
abbrev edgeIn : (c : Dev nD) → (b : Ref sig .tc) → Buf (Elt F) ((c : Thread nD τ).loc b) := fun c b => V1 m c b
/-- After the edge stage: its arrays at what its write-backs leave, every other buffer as on entry. -/
def afterEdge (c : Dev nD) : Valuation τ sig (Elt F) :=
  Pipeline.withArrays spec0 c (V1 m c) fun w => (Edge.record (edgeIn m) c).arrAt w cfg0.N
theorem afterEdge_arr (c : Dev nD) (w : Fin cfg0.W) :
    afterEdge m c (Proc.devRef .tc (Pipeline.arrRef spec0 w)) = (Edge.record (edgeIn m) c).arrAt w cfg0.N := by
  unfold afterEdge; exact Pipeline.withArrays_arr spec0 launch0.win.arr_inj c _ _ w
theorem afterEdge_other (c : Dev nD) (b : Ref sig .tc) (hb : ∀ w, Pipeline.arrRef spec0 w ≠ b) :
    afterEdge m c (Proc.devRef .tc b) = V1 m c (Proc.devRef .tc b) := by
  unfold afterEdge; exact Pipeline.withArrays_of_ne spec0 c _ _ b hb
abbrev edgeOut : (c : Dev nD) → (b : Ref sig .tc) → Buf (Elt F) ((c : Thread nD τ).loc b) := fun c b => afterEdge m c b
theorem edge_left (c : Dev nD) (w : Fin cfg0.W) : (Edge.record (edgeIn m) c).arrAt w cfg0.N = edgeOut m c (Pipeline.arrRef spec0 w) :=
  (afterEdge_arr m c w).symm
theorem edge_rest (c : Dev nD) : ∀ b, b ∉ Finset.univ.image (Pipeline.arrRef spec0) → edgeOut m c b = edgeIn m c b :=
  fun b hb => afterEdge_other m c b fun w e => hb (Finset.mem_image.mpr ⟨w, Finset.mem_univ _, e⟩)

/-- On entry to the node stage: after the second stretch of host operations. -/
abbrev beforeNode : Dev nD → Valuation τ sig (Elt F) := fun c => StableHlo.after hostOps1 (afterEdge m c)
abbrev nodeIn : (c : Dev nD) → (b : Ref sig .tc) → Buf (Elt F) ((c : Thread nD τ).loc b) := fun c b => beforeNode m c b
/-- After the node stage. -/
def afterNode (c : Dev nD) : Valuation τ sig (Elt F) :=
  Pipeline.withArrays spec1 c (beforeNode m c) fun w => (Node.record (nodeIn m) c).arrAt w cfg1.N
theorem afterNode_arr (c : Dev nD) (w : Fin cfg1.W) :
    afterNode m c (Proc.devRef .tc (Pipeline.arrRef spec1 w)) = (Node.record (nodeIn m) c).arrAt w cfg1.N := by
  unfold afterNode; exact Pipeline.withArrays_arr spec1 launch1.win.arr_inj c _ _ w
theorem afterNode_other (c : Dev nD) (b : Ref sig .tc) (hb : ∀ w, Pipeline.arrRef spec1 w ≠ b) :
    afterNode m c (Proc.devRef .tc b) = beforeNode m c (Proc.devRef .tc b) := by
  unfold afterNode; exact Pipeline.withArrays_of_ne spec1 c _ _ b hb
abbrev nodeOut : (c : Dev nD) → (b : Ref sig .tc) → Buf (Elt F) ((c : Thread nD τ).loc b) := fun c b => afterNode m c b
theorem node_left (c : Dev nD) (w : Fin cfg1.W) : (Node.record (nodeIn m) c).arrAt w cfg1.N = nodeOut m c (Pipeline.arrRef spec1 w) :=
  (afterNode_arr m c w).symm
theorem node_rest (c : Dev nD) : ∀ b, b ∉ Finset.univ.image (Pipeline.arrRef spec1) → nodeOut m c b = nodeIn m c b :=
  fun b hb => afterNode_other m c b fun w e => hb (Finset.mem_image.mpr ⟨w, Finset.mem_univ _, e⟩)

/-! ## What an item leaves alone

A stage changes its output array only: an input window's array comes back as it went in, and a buffer
that is no window's array is not touched. A stretch of host operations changes only what it writes. -/

theorem edge_keeps (c : Dev nD) (b : Ref sig .tc) (hb : b ≠ main_v19) : edgeOut m c b = edgeIn m c b := by
  by_cases h : ∃ w, Pipeline.arrRef spec0 w = b
  · obtain ⟨w, rfl⟩ := h
    have hin : ∀ w : Fin cfg0.W, Pipeline.arrRef spec0 w ≠ main_v19 → (cfg0.win w).isOut = false := by decide
    exact (afterEdge_arr m c w).trans (((Edge.record (edgeIn m) c).arrAt_in w (hin w hb) _).trans (Edge.record_A (edgeIn m) c w))
  · exact afterEdge_other m c b fun w e => h ⟨w, e⟩

theorem node_keeps (c : Dev nD) (b : Ref sig .tc) (hb : b ≠ main_v24) : nodeOut m c b = nodeIn m c b := by
  by_cases h : ∃ w, Pipeline.arrRef spec1 w = b
  · obtain ⟨w, rfl⟩ := h
    have hin : ∀ w : Fin cfg1.W, Pipeline.arrRef spec1 w ≠ main_v24 → (cfg1.win w).isOut = false := by decide
    exact (afterNode_arr m c w).trans (((Node.record (nodeIn m) c).arrAt_in w (hin w hb) _).trans (Node.record_A (nodeIn m) c w))
  · exact afterNode_other m c b fun w e => h ⟨w, e⟩

theorem first_stretch_keeps (c : Dev nD) (b : Ref sig .tc) (hb : b ∉ hostOps0_W) : edgeIn m c b = m ((c : Thread nD τ).loc b) :=
  V1_of m c b hb
theorem second_stretch_keeps (c : Dev nD) (b : Ref sig .tc) (hb : b ∉ hostOps1_W) : nodeIn m c b = edgeOut m c b :=
  StableHlo.after_of_writes_sub hostOps1 _ hostOps1_writes hb

/-- A buffer that no host operation writes and that is no stage's output ends as launched: so every argument. -/
theorem kept_to_the_end (c : Dev nD) (b : Ref sig .tc) (h0 : b ∉ hostOps0_W) (h1 : b ∉ hostOps1_W) (h19 : b ≠ main_v19) (h24 : b ≠ main_v24) :
    nodeOut m c b = m ((c : Thread nD τ).loc b) :=
  (node_keeps m c b h24).trans ((second_stretch_keeps m c b h1).trans ((edge_keeps m c b h19).trans (first_stretch_keeps m c b h0)))

/-! ## The stages as items of the run -/

abbrev noTables : (p : Fin 2) → (pcfgs (F := F) p).Adm := fun p => (cfgs p).toPCfg_adm
/-- Each stage's record, at the values the stage is entered from. -/
def records : (p : Fin 2) → (c : Dev nD) → Dat τ (Elt F) Unit ℕ (UR sig nD τ) ℕ (Pipeline.pin (pcfgs (F := F)) noTables p) c
  | ⟨0, _⟩ => fun c => Edge.record (edgeIn m) c
  | ⟨1, _⟩ => fun c => Node.record (nodeIn m) c
abbrev 𝒱 : Variants := Variants.none
abbrev Lv : GSem nD τ sig → Finset Unit := fun _ => ∅
abbrev lv : GSem nD τ sig → Unit → ℕ := fun _ _ => 0
/-- What rides beside the buffers through every item: the generator register at some state, and nothing owed. -/
abbrev riding (c : Dev nD) : sProp 𝕄 := iprop((∃ r, prngReg c r) ∗ ∃ W, owes (c : Thread nD τ) (0 : CellTallies nD τ sig Unit) W)
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱 Lv lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W riding
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev atEnd (c : Dev nD) : sProp 𝕄 := iprop(StableHlo.held (c : Thread nD τ) (Pipeline.ucRefs τ sig) (afterNode m c) ∗ ∃ r, prngReg c r)

set_option backward.isDefEq.respectTransparency.types false in
def edgeSeg : Pipeline.RegionSeg (pcfgs (F := F)) noTables (records m) () defs₀ 𝒱 Lv lv 0 where
  win := launch0.win.to₀
  block_pos := launch0.block_pos
  stage_whole := launch0.stage_whole
  K := PEmpty
  osem k := k.elim
  ho := Pipeline.OwnSemFacts.none _
  hbody c := (Edge.obligation (edgeIn m) c).loose
  hwaits := Pipeline.hwaits_of_owed_zero _ _ _ _ Lv lv 0 fun _ _ => rfl
  pre c := iprop(StableHlo.held (c : Thread nD τ) (Pipeline.ucRefs τ sig) (V1 m c) ∗ riding c)
  post c := iprop(StableHlo.held (c : Thread nD τ) (Pipeline.ucRefs τ sig) (afterEdge m c) ∗ riding c)
  X c := iprop(∃ r, prngReg c r)
  Y c := iprop(∃ r, prngReg c r)
  Z c := Pipeline.unscopedRest (Ix := Unit) (Name := ℕ) (U := UR sig nD τ) (Lvl := ℕ) spec0 c (edgeIn m c)
  hentry c := by
    rw [Pipeline.ownSems0_none]
    have hsplit := Pipeline.arrays_of_unscopedBufs (p := 0) (pcfgs (F := F)) noTables (records m) launch0.win launch0.arr_whole c
      ((records m 0 c).share_full fun _ => rfl) (edgeIn m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (records m 0 c).Φ 0 = Pipeline.ΦA spec0 c from rfl]; unfold Pipeline.ΦA
    iintro ⟨Hp, -, Hr⟩
    isplitl [Hr]; · iexact Hr
    iexact Hp
  hout c := by
    rw [Pipeline.ownSems0_none, show (records m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (records m) ((records m 0 c).share_full fun _ => rfl)
      (edgeIn m c) (edgeOut m c) ((records m 0 c).arrAt · cfg0.N) (edge_left m c) (edge_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def nodeSeg : Pipeline.RegionSeg (pcfgs (F := F)) noTables (records m) () defs₀ 𝒱 Lv lv 1 where
  win := launch1.win.to₀
  block_pos := launch1.block_pos
  stage_whole := launch1.stage_whole
  K := PEmpty
  osem k := k.elim
  ho := Pipeline.OwnSemFacts.none _
  hbody c := (Node.obligation (nodeIn m) c).loose
  hwaits := Pipeline.hwaits_of_owed_zero _ _ _ _ Lv lv 1 fun _ _ => rfl
  pre c := iprop(StableHlo.held (c : Thread nD τ) (Pipeline.ucRefs τ sig) (beforeNode m c) ∗ riding c)
  post c := iprop(atEnd m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (nodeIn m c)
  hentry c := by
    rw [Pipeline.ownSems0_none]
    have hsplit := Pipeline.arrays_of_unscopedBufs (p := 1) (pcfgs (F := F)) noTables (records m) launch1.win launch1.arr_whole c
      ((records m 1 c).share_full fun _ => rfl) (nodeIn m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (records m 1 c).Φ 0 = Pipeline.ΦA spec1 c from rfl]; unfold Pipeline.ΦA
    iintro ⟨Hp, -, Hr⟩
    isplitl [Hr]; · iexact Hr
    iexact Hp
  hout c := by
    rw [Pipeline.ownSems0_none, show (records m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (records m) ((records m 1 c).share_full fun _ => rfl)
      (nodeIn m c) (nodeOut m c) ((records m 1 c).arrAt · cfg1.N) (node_left m c) (node_rest m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev items : List (Pipeline.Seg (pcfgs (F := F)) noTables (records m) () defs₀ 𝒱 Lv lv) :=
  [ .host (stretch hostOps0 hostOps0_sub hostOps0_fresh (V0 m)),
    .region (edgeSeg m),
    .host (stretch hostOps1 hostOps1_sub hostOps1_fresh (afterEdge m)),
    .region (nodeSeg m) ]
theorem main_is_items (c : Dev nD) : main (F := F) c = Pipeline.Seg.run (items m) := (main_chain c).trans (by chain_rfl)

set_option backward.isDefEq.respectTransparency.types false in
/-- Every weakly fair execution from memory `m` with zero counters ends, nothing faulting, with every buffer outside the
    kernels' scratch memory at its value after the node stage. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = afterNode m c b) :=
  Pipeline.θ_run_regions_kit (pcfgs (F := F)) noTables (records m) () cellOf_inj emb₁ defs₀ 𝒱 Lv lv m ρ main (items m)
    (fun c Q => by rw [main_is_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ riding c)) (Tₙ := atEnd m)
    (hch := ⟨fun _ => .rfl, fun _ => .rfl, fun _ => .rfl, fun _ => .rfl, fun _ => .rfl⟩)
    (hinit := by
      refine Pipeline.initEach Lv lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = afterNode m c b)
    (hfin := fun c s' => by
      iintro ⟨⟨Hh, -⟩, HSI⟩
      unfold StableHlo.held
      imodintro
      iapply (pointsTo_read_all (Pipeline.ucRefs τ sig) (fun b => (((c : Thread nD τ)).1, b)) (afterNode m c) s')
      isplitl [Hh] <;> iassumption)
    (hQ := fun s h => h)

/-- Every weakly fair execution ends, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (kept_to_the_end m c main_arg0 (by decide) (by decide) (by decide) (by decide)),
      (h c _ (mem_uc main_arg1 (by decide))).trans (kept_to_the_end m c main_arg1 (by decide) (by decide) (by decide) (by decide)),
      (h c _ (mem_uc main_arg2 (by decide))).trans (kept_to_the_end m c main_arg2 (by decide) (by decide) (by decide) (by decide)),
      (h c _ (mem_uc main_arg3 (by decide))).trans (kept_to_the_end m c main_arg3 (by decide) (by decide) (by decide) (by decide)),
      (h c _ (mem_uc main_arg4 (by decide))).trans (kept_to_the_end m c main_arg4 (by decide) (by decide) (by decide) (by decide)),
      (h c _ (mem_uc main_arg5 (by decide))).trans (kept_to_the_end m c main_arg5 (by decide) (by decide) (by decide) (by decide)),
      (h c _ (mem_uc main_arg6 (by decide))).trans (kept_to_the_end m c main_arg6 (by decide) (by decide) (by decide) (by decide)),
      (h c _ (mem_uc main_arg7 (by decide))).trans (kept_to_the_end m c main_arg7 (by decide) (by decide) (by decide) (by decide)),
      (h c _ (mem_uc main_arg8 (by decide))).trans (kept_to_the_end m c main_arg8 (by decide) (by decide) (by decide) (by decide)),
      (h c _ (mem_uc main_arg9 (by decide))).trans (kept_to_the_end m c main_arg9 (by decide) (by decide) (by decide) (by decide)),
      (h c _ (mem_uc main_arg10 (by decide))).trans (kept_to_the_end m c main_arg10 (by decide) (by decide) (by decide) (by decide))⟩)
    (run_all m ρ)

end Cert.Kernel.Whole

end
-- ==== Proof.EdgeStage.lean ====
/-
  The edge stage: one grid point takes 6400 rows of the 160-wide edge inputs, the two weight
  matrices and the two bias rows, and stores 6400 rows of the 64-wide edge embedding, the
  two-layer perceptron of those rows. The point's inputs are left as they were.
-/
import proofs.«146063_j29343216566653_1_alg».proof.Proof.Gen.KernelIdeal.Launch
import proofs.«146063_j29343216566653_1_alg».proof.Proof.Gen.KernelIdeal.Skeleton
import proofs.«146063_j29343216566653_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Edge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at grid point `t`, cut out of the array the stage finds on entry. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds that window's block at every grid point: where the block is
    not fetched anew its index has not moved since the last fetch, and the body leaves it in place. -/
theorem held0_of {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem held1_of {c : Dev nD} (dat : Dat τ (Elt F) Unit ℕ (UR sig nD τ) ℕ cfg0 c) (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem held2_of {c : Dev nD} (dat : Dat τ (Elt F) Unit ℕ (UR sig nD τ) ℕ cfg0 c) (hA : dat.A 2 = V c (Pipeline.arrRef spec0 2))
    (hafter : ∀ t, dat.after 2 t = blockAt V c 2 t) (t : Fin cfg0.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem held3_of {c : Dev nD} (dat : Dat τ (Elt F) Unit ℕ (UR sig nD τ) ℕ cfg0 c) (hA : dat.A 3 = V c (Pipeline.arrRef spec0 3))
    (hafter : ∀ t, dat.after 3 t = blockAt V c 3 t) (t : Fin cfg0.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem held4_of {c : Dev nD} (dat : Dat τ (Elt F) Unit ℕ (UR sig nD τ) ℕ cfg0 c) (hA : dat.A 4 = V c (Pipeline.arrRef spec0 4))
    (hafter : ∀ t, dat.after 4 t = blockAt V c 4 t) (t : Fin cfg0.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

end

/-! ## What one grid point stores -/

abbrev rX : Rect S6400x160 := Rect.unit (s := S6400x160) ![0, 0] S6400x160.size inb_S6400x160_S6400x160_0_0
abbrev rW1 : Rect S160x128 := Rect.unit (s := S160x128) ![0, 0] S160x128.size inb_S160x128_S160x128_0_0
abbrev rB1 : Rect S128 := Rect.unit (s := S128) ![0] S128.size inb_S128_S128_0
abbrev rW2 : Rect S128x64 := Rect.unit (s := S128x64) ![0, 0] S128x64.size inb_S128x64_S128x64_0_0
abbrev rB2 : Rect S64 := Rect.unit (s := S64) ![0] S64.size inb_S64_S64_0
abbrev rOut : Rect S6400x64 := Rect.unit (s := S6400x64) ![0, 0] S6400x64.size inb_S6400x64_S6400x64_0_0

/-- The output block after the body: its one store, over the whole block, of the perceptron of the five loaded blocks. -/
def stored (x : Vec F S6400x160 .f32) (w1 : Vec F S160x128 .f32) (b1 : Vec F S128 .f32) (w2 : Vec F S128x64 .f32) (b2 : Vec F S64 .f32) :
    Vec F S6400x64 .f32 :=
  View.canon [⟨rOut, k0_pay1 (View.ld x rX) (View.ld w1 rW1) (View.ld b1 rB1) (View.ld w2 rW2) (View.ld b2 rB2)⟩]

/-- The one store covers the output block. -/
theorem stored_cover (p : Vec F S6400x64 .f32) (y : S6400x64.Idx) :
    ∃ pc ∈ ([⟨rOut, p⟩] : List (View.Piece (Elt F) S6400x64 .f32)), y ∈ pc.1.set :=
  View.cover_of_tiled [⟨rOut, p⟩] S6400x64.size (by rfl) y

set_option maxHeartbeats 1000000 in
/-- The body on whole staging buffers, the five inputs' at contents `x w1 b1 w2 b2` and the output's at anything:
    it runs to the end, leaves the inputs' as they were and the output's at `stored x w1 b1 w2 b2`. -/
theorem body_triple (c : Dev nD) (E : Set ℕ) (i : grid0.Coords) (a1 : Memref sig .tc .vmem S6400x160 .f32) (h1 : a1.IsWhole) (a2 : Memref sig .tc .vmem S160x128 .f32) (h2 : a2.IsWhole)
    (a3 : Memref sig .tc .vmem S128 .f32) (h3 : a3.IsWhole) (a4 : Memref sig .tc .vmem S128x64 .f32) (h4 : a4.IsWhole)
    (a5 : Memref sig .tc .vmem S64 .f32) (h5 : a5.IsWhole) (a6 : Memref sig .tc .vmem S6400x64 .f32) (h6 : a6.IsWhole)
    (x : Vec F S6400x160 .f32) (w1 : Vec F S160x128 .f32) (b1 : Vec F S128 .f32) (w2 : Vec F S128x64 .f32) (b2 : Vec F S64 .f32)
    (K : PUnit → sProp 𝕄) :
    iprop(owns (c : Thread nD τ) a1 fullShare x ∗ owns (c : Thread nD τ) a2 fullShare w1 ∗ owns (c : Thread nD τ) a3 fullShare b1
        ∗ owns (c : Thread nD τ) a4 fullShare w2 ∗ owns (c : Thread nD τ) a5 fullShare b2 ∗ (∃ d, owns (c : Thread nD τ) a6 fullShare d)
        ∗ (iprop(owns (c : Thread nD τ) a1 fullShare x ∗ owns (c : Thread nD τ) a2 fullShare w1 ∗ owns (c : Thread nD τ) a3 fullShare b1
            ∗ owns (c : Thread nD τ) a4 fullShare w2 ∗ owns (c : Thread nD τ) a5 fullShare b2
            ∗ owns (c : Thread nD τ) a6 fullShare (stored x w1 b1 w2 b2)) -∗ K ⟨⟩))
      ⊢ wp frame (wpE (defs₀ (F := F)) Variants.none c none) E (cc0__mlp2_kernel i a1 h1 a2 h2 a3 h3 a4 h4 a5 h5 a6 h6) K := by
  simp only [cc0__mlp2_kernel_eq_skeleton]; unfold cc0__mlp2_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (stored_cover _)

section
variable (V : (c : Dev nD) → (b : Ref sig .tc) → Buf (Elt F) ((c : Thread nD τ).loc b))

/-! ## The stage's record: what every window's buffer holds after the body at each point -/

/-- On core `c`: the arrays as the stage finds them; after the body at point `t` each input buffer at its block, the
    output buffer at `stored` of the five input blocks; nothing owed, full shares, nothing else touched. -/
def record (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => stored (blockAt V c 0 t) (blockAt V c 1 t) (blockAt V c 2 t) (blockAt V c 3 t) (blockAt V c 4 t)
  Φ _ := Pipeline.ΦA spec0 c
  q _ := fullShare
  owed _ := 0

theorem record_A (c : Dev nD) (w : Fin cfg0.W) : (record V c).A w = V c (Pipeline.arrRef spec0 w) := by
  dsimp only [record]

theorem after_0 (c : Dev nD) (t : Fin cfg0.N) : (record V c).after 0 t = blockAt V c 0 t := by dsimp only [record]
theorem after_1 (c : Dev nD) (t : Fin cfg0.N) : (record V c).after 1 t = blockAt V c 1 t := by dsimp only [record]
theorem after_2 (c : Dev nD) (t : Fin cfg0.N) : (record V c).after 2 t = blockAt V c 2 t := by dsimp only [record]
theorem after_3 (c : Dev nD) (t : Fin cfg0.N) : (record V c).after 3 t = blockAt V c 3 t := by dsimp only [record]
theorem after_4 (c : Dev nD) (t : Fin cfg0.N) : (record V c).after 4 t = blockAt V c 4 t := by dsimp only [record]
theorem after_5 (c : Dev nD) (t : Fin cfg0.N) : (record V c).after 5 t
    = stored (blockAt V c 0 t) (blockAt V c 1 t) (blockAt V c 2 t) (blockAt V c 3 t) (blockAt V c 4 t) := by dsimp only [record]

theorem before_0 (c : Dev nD) (t : Fin cfg0.N) (d) : (record V c).before 0 t d = blockAt V c 0 t :=
  held0_of V (record V c) (record_A V c 0) (after_0 V c) t d
theorem before_1 (c : Dev nD) (t : Fin cfg0.N) (d) : (record V c).before 1 t d = blockAt V c 1 t :=
  held1_of V (record V c) (record_A V c 1) (after_1 V c) t d
theorem before_2 (c : Dev nD) (t : Fin cfg0.N) (d) : (record V c).before 2 t d = blockAt V c 2 t :=
  held2_of V (record V c) (record_A V c 2) (after_2 V c) t d
theorem before_3 (c : Dev nD) (t : Fin cfg0.N) (d) : (record V c).before 3 t d = blockAt V c 3 t :=
  held3_of V (record V c) (record_A V c 3) (after_3 V c) t d
theorem before_4 (c : Dev nD) (t : Fin cfg0.N) (d) : (record V c).before 4 t d = blockAt V c 4 t :=
  held4_of V (record V c) (record_A V c 4) (after_4 V c) t d

/-! ## The body at a grid point, as the pipeline calls it -/

def callPre (c : Dev nD) (t : Fin cfg0.N) : sProp 𝕄 :=
  iprop((record V c).Φ t.castSucc ∗ (record V c).owesAt () t.castSucc
    ∗ (∃ d, owns (c : Thread nD τ) (st0_0 t) fullShare ((record V c).before 0 t d))
    ∗ (∃ d, owns (c : Thread nD τ) (st0_1 t) fullShare ((record V c).before 1 t d))
    ∗ (∃ d, owns (c : Thread nD τ) (st0_2 t) fullShare ((record V c).before 2 t d))
    ∗ (∃ d, owns (c : Thread nD τ) (st0_3 t) fullShare ((record V c).before 3 t d))
    ∗ (∃ d, owns (c : Thread nD τ) (st0_4 t) fullShare ((record V c).before 4 t d))
    ∗ (∃ d, owns (c : Thread nD τ) (st0_5 t) fullShare ((record V c).before 5 t d)))

def callPost (c : Dev nD) (t : Fin cfg0.N) : sProp 𝕄 :=
  iprop((record V c).Φ t.succ ∗ (record V c).owesAt () t.succ
    ∗ owns (c : Thread nD τ) (st0_0 t) fullShare ((record V c).after 0 t)
    ∗ owns (c : Thread nD τ) (st0_1 t) fullShare ((record V c).after 1 t)
    ∗ owns (c : Thread nD τ) (st0_2 t) fullShare ((record V c).after 2 t)
    ∗ owns (c : Thread nD τ) (st0_3 t) fullShare ((record V c).after 3 t)
    ∗ owns (c : Thread nD τ) (st0_4 t) fullShare ((record V c).after 4 t)
    ∗ owns (c : Thread nD τ) (st0_5 t) fullShare ((record V c).after 5 t))

theorem call_sound (c : Dev nD) (t : Fin cfg0.N) :
    callPre V c t ⊢ wp frame (wpE (defs₀ (F := F)) Variants.none c none) Set.univ (bodyAt0 t) (fun _ => callPost V c t) := by
  unfold callPre callPost bodyAt0
  simp only [before_0, before_1, before_2, before_3, before_4]
  rw [show (record V c).Φ t.succ = (record V c).Φ t.castSucc from rfl,
    show (record V c).owesAt () t.succ = (record V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (body_triple c Set.univ _ _ _ _ _ _ _ _ _ _ _ _ _ (blockAt V c 0 t) (blockAt V c 1 t) (blockAt V c 2 t) (blockAt V c 3 t) (blockAt V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body meets what the pipeline asks of it at every grid point. -/
theorem obligation (c : Dev nD) : BodyObligation (record (F := F) V c) (defs₀ (F := F)) Variants.none () Set.univ := fun t => by
  rw [bigSep_W0, bigSep_W0]
  exact call_sound V c t

end

end Cert.KernelIdeal.Edge

end
-- ==== Proof.NodeStage.lean ====
/-
  The node stage: one grid point takes 5000 rows of the 128-wide node inputs, the two weight
  matrices and the two bias rows, and stores 5000 rows of the 64-wide node embedding, the
  two-layer perceptron of those rows. The point's inputs are left as they were.
-/
import proofs.«146063_j29343216566653_1_alg».proof.Proof.Gen.KernelIdeal.Launch
import proofs.«146063_j29343216566653_1_alg».proof.Proof.Gen.KernelIdeal.Skeleton
import proofs.«146063_j29343216566653_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Node

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at grid point `t`, cut out of the array the stage finds on entry. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds that window's block at every grid point: where the block is
    not fetched anew its index has not moved since the last fetch, and the body leaves it in place. -/
theorem held0_of {c : Dev nD} (dat : Dat τ (Elt F) Unit ℕ (UR sig nD τ) ℕ cfg1 c) (hA : dat.A 0 = V c (Pipeline.arrRef spec1 0))
    (hafter : ∀ t, dat.after 0 t = blockAt V c 0 t) (t : Fin cfg1.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem held1_of {c : Dev nD} (dat : Dat τ (Elt F) Unit ℕ (UR sig nD τ) ℕ cfg1 c) (hA : dat.A 1 = V c (Pipeline.arrRef spec1 1))
    (hafter : ∀ t, dat.after 1 t = blockAt V c 1 t) (t : Fin cfg1.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem held2_of {c : Dev nD} (dat : Dat τ (Elt F) Unit ℕ (UR sig nD τ) ℕ cfg1 c) (hA : dat.A 2 = V c (Pipeline.arrRef spec1 2))
    (hafter : ∀ t, dat.after 2 t = blockAt V c 2 t) (t : Fin cfg1.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem held3_of {c : Dev nD} (dat : Dat τ (Elt F) Unit ℕ (UR sig nD τ) ℕ cfg1 c) (hA : dat.A 3 = V c (Pipeline.arrRef spec1 3))
    (hafter : ∀ t, dat.after 3 t = blockAt V c 3 t) (t : Fin cfg1.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem held4_of {c : Dev nD} (dat : Dat τ (Elt F) Unit ℕ (UR sig nD τ) ℕ cfg1 c) (hA : dat.A 4 = V c (Pipeline.arrRef spec1 4))
    (hafter : ∀ t, dat.after 4 t = blockAt V c 4 t) (t : Fin cfg1.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

end

/-! ## What one grid point stores -/

abbrev rX : Rect S5000x128 := Rect.unit (s := S5000x128) ![0, 0] S5000x128.size inb_S5000x128_S5000x128_0_0
abbrev rW1 : Rect S128x128 := Rect.unit (s := S128x128) ![0, 0] S128x128.size inb_S128x128_S128x128_0_0
abbrev rB1 : Rect S128 := Rect.unit (s := S128) ![0] S128.size inb_S128_S128_0
abbrev rW2 : Rect S128x64 := Rect.unit (s := S128x64) ![0, 0] S128x64.size inb_S128x64_S128x64_0_0
abbrev rB2 : Rect S64 := Rect.unit (s := S64) ![0] S64.size inb_S64_S64_0
abbrev rOut : Rect S5000x64 := Rect.unit (s := S5000x64) ![0, 0] S5000x64.size inb_S5000x64_S5000x64_0_0

/-- The output block after the body: its one store, over the whole block, of the perceptron of the five loaded blocks. -/
def stored (x : Vec F S5000x128 .f32) (w1 : Vec F S128x128 .f32) (b1 : Vec F S128 .f32) (w2 : Vec F S128x64 .f32) (b2 : Vec F S64 .f32) :
    Vec F S5000x64 .f32 :=
  View.canon [⟨rOut, k1_pay1 (View.ld x rX) (View.ld w1 rW1) (View.ld b1 rB1) (View.ld w2 rW2) (View.ld b2 rB2)⟩]

/-- The one store covers the output block. -/
theorem stored_cover (p : Vec F S5000x64 .f32) (y : S5000x64.Idx) :
    ∃ pc ∈ ([⟨rOut, p⟩] : List (View.Piece (Elt F) S5000x64 .f32)), y ∈ pc.1.set :=
  View.cover_of_tiled [⟨rOut, p⟩] S5000x64.size (by rfl) y

set_option maxHeartbeats 1000000 in
/-- The body on whole staging buffers, the five inputs' at contents `x w1 b1 w2 b2` and the output's at anything:
    it runs to the end, leaves the inputs' as they were and the output's at `stored x w1 b1 w2 b2`. -/
theorem body_triple (c : Dev nD) (E : Set ℕ) (i : grid1.Coords) (a1 : Memref sig .tc .vmem S5000x128 .f32) (h1 : a1.IsWhole) (a2 : Memref sig .tc .vmem S128x128 .f32) (h2 : a2.IsWhole)
    (a3 : Memref sig .tc .vmem S128 .f32) (h3 : a3.IsWhole) (a4 : Memref sig .tc .vmem S128x64 .f32) (h4 : a4.IsWhole)
    (a5 : Memref sig .tc .vmem S64 .f32) (h5 : a5.IsWhole) (a6 : Memref sig .tc .vmem S5000x64 .f32) (h6 : a6.IsWhole)
    (x : Vec F S5000x128 .f32) (w1 : Vec F S128x128 .f32) (b1 : Vec F S128 .f32) (w2 : Vec F S128x64 .f32) (b2 : Vec F S64 .f32)
    (K : PUnit → sProp 𝕄) :
    iprop(owns (c : Thread nD τ) a1 fullShare x ∗ owns (c : Thread nD τ) a2 fullShare w1 ∗ owns (c : Thread nD τ) a3 fullShare b1
        ∗ owns (c : Thread nD τ) a4 fullShare w2 ∗ owns (c : Thread nD τ) a5 fullShare b2 ∗ (∃ d, owns (c : Thread nD τ) a6 fullShare d)
        ∗ (iprop(owns (c : Thread nD τ) a1 fullShare x ∗ owns (c : Thread nD τ) a2 fullShare w1 ∗ owns (c : Thread nD τ) a3 fullShare b1
            ∗ owns (c : Thread nD τ) a4 fullShare w2 ∗ owns (c : Thread nD τ) a5 fullShare b2
            ∗ owns (c : Thread nD τ) a6 fullShare (stored x w1 b1 w2 b2)) -∗ K ⟨⟩))
      ⊢ wp frame (wpE (defs₀ (F := F)) Variants.none c none) E (cc1__mlp2_kernel i a1 h1 a2 h2 a3 h3 a4 h4 a5 h5 a6 h6) K := by
  simp only [cc1__mlp2_kernel_eq_skeleton]; unfold cc1__mlp2_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (stored_cover _)

section
variable (V : (c : Dev nD) → (b : Ref sig .tc) → Buf (Elt F) ((c : Thread nD τ).loc b))

/-! ## The stage's record: what every window's buffer holds after the body at each point -/

/-- On core `c`: the arrays as the stage finds them; after the body at point `t` each input buffer at its block, the
    output buffer at `stored` of the five input blocks; nothing owed, full shares, nothing else touched. -/
def record (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => stored (blockAt V c 0 t) (blockAt V c 1 t) (blockAt V c 2 t) (blockAt V c 3 t) (blockAt V c 4 t)
  Φ _ := Pipeline.ΦA spec1 c
  q _ := fullShare
  owed _ := 0

theorem record_A (c : Dev nD) (w : Fin cfg1.W) : (record V c).A w = V c (Pipeline.arrRef spec1 w) := by
  dsimp only [record]

theorem after_0 (c : Dev nD) (t : Fin cfg1.N) : (record V c).after 0 t = blockAt V c 0 t := by dsimp only [record]
theorem after_1 (c : Dev nD) (t : Fin cfg1.N) : (record V c).after 1 t = blockAt V c 1 t := by dsimp only [record]
theorem after_2 (c : Dev nD) (t : Fin cfg1.N) : (record V c).after 2 t = blockAt V c 2 t := by dsimp only [record]
theorem after_3 (c : Dev nD) (t : Fin cfg1.N) : (record V c).after 3 t = blockAt V c 3 t := by dsimp only [record]
theorem after_4 (c : Dev nD) (t : Fin cfg1.N) : (record V c).after 4 t = blockAt V c 4 t := by dsimp only [record]
theorem after_5 (c : Dev nD) (t : Fin cfg1.N) : (record V c).after 5 t
    = stored (blockAt V c 0 t) (blockAt V c 1 t) (blockAt V c 2 t) (blockAt V c 3 t) (blockAt V c 4 t) := by dsimp only [record]

theorem before_0 (c : Dev nD) (t : Fin cfg1.N) (d) : (record V c).before 0 t d = blockAt V c 0 t :=
  held0_of V (record V c) (record_A V c 0) (after_0 V c) t d
theorem before_1 (c : Dev nD) (t : Fin cfg1.N) (d) : (record V c).before 1 t d = blockAt V c 1 t :=
  held1_of V (record V c) (record_A V c 1) (after_1 V c) t d
theorem before_2 (c : Dev nD) (t : Fin cfg1.N) (d) : (record V c).before 2 t d = blockAt V c 2 t :=
  held2_of V (record V c) (record_A V c 2) (after_2 V c) t d
theorem before_3 (c : Dev nD) (t : Fin cfg1.N) (d) : (record V c).before 3 t d = blockAt V c 3 t :=
  held3_of V (record V c) (record_A V c 3) (after_3 V c) t d
theorem before_4 (c : Dev nD) (t : Fin cfg1.N) (d) : (record V c).before 4 t d = blockAt V c 4 t :=
  held4_of V (record V c) (record_A V c 4) (after_4 V c) t d

/-! ## The body at a grid point, as the pipeline calls it -/

def callPre (c : Dev nD) (t : Fin cfg1.N) : sProp 𝕄 :=
  iprop((record V c).Φ t.castSucc ∗ (record V c).owesAt () t.castSucc
    ∗ (∃ d, owns (c : Thread nD τ) (st1_0 t) fullShare ((record V c).before 0 t d))
    ∗ (∃ d, owns (c : Thread nD τ) (st1_1 t) fullShare ((record V c).before 1 t d))
    ∗ (∃ d, owns (c : Thread nD τ) (st1_2 t) fullShare ((record V c).before 2 t d))
    ∗ (∃ d, owns (c : Thread nD τ) (st1_3 t) fullShare ((record V c).before 3 t d))
    ∗ (∃ d, owns (c : Thread nD τ) (st1_4 t) fullShare ((record V c).before 4 t d))
    ∗ (∃ d, owns (c : Thread nD τ) (st1_5 t) fullShare ((record V c).before 5 t d)))

def callPost (c : Dev nD) (t : Fin cfg1.N) : sProp 𝕄 :=
  iprop((record V c).Φ t.succ ∗ (record V c).owesAt () t.succ
    ∗ owns (c : Thread nD τ) (st1_0 t) fullShare ((record V c).after 0 t)
    ∗ owns (c : Thread nD τ) (st1_1 t) fullShare ((record V c).after 1 t)
    ∗ owns (c : Thread nD τ) (st1_2 t) fullShare ((record V c).after 2 t)
    ∗ owns (c : Thread nD τ) (st1_3 t) fullShare ((record V c).after 3 t)
    ∗ owns (c : Thread nD τ) (st1_4 t) fullShare ((record V c).after 4 t)
    ∗ owns (c : Thread nD τ) (st1_5 t) fullShare ((record V c).after 5 t))

theorem call_sound (c : Dev nD) (t : Fin cfg1.N) :
    callPre V c t ⊢ wp frame (wpE (defs₀ (F := F)) Variants.none c none) Set.univ (bodyAt1 t) (fun _ => callPost V c t) := by
  unfold callPre callPost bodyAt1
  simp only [before_0, before_1, before_2, before_3, before_4]
  rw [show (record V c).Φ t.succ = (record V c).Φ t.castSucc from rfl,
    show (record V c).owesAt () t.succ = (record V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (body_triple c Set.univ _ _ _ _ _ _ _ _ _ _ _ _ _ (blockAt V c 0 t) (blockAt V c 1 t) (blockAt V c 2 t) (blockAt V c 3 t) (blockAt V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body meets what the pipeline asks of it at every grid point. -/
theorem obligation (c : Dev nD) : BodyObligation (record (F := F) V c) (defs₀ (F := F)) Variants.none () Set.univ := fun t => by
  rw [bigSep_W1, bigSep_W1]
  exact call_sound V c t

end

end Cert.KernelIdeal.Node

end
-- ==== Proof.Whole.lean ====
/-
  The whole program as four items: the host operations that build the edge inputs, the edge stage,
  the host operations that sum the edge embeddings into their source nodes and join them to the node
  features, and the node stage. Between two items every buffer outside the kernels' scratch memory
  holds a named value: the launch memory, then what each stretch of host operations computes from it,
  then, after a stage, the same except that the stage's output array holds what the stage's write-backs
  leave. Every weakly fair execution ends, faulting nowhere, with every such buffer at the last of
  these values.
-/
import proofs.«146063_j29343216566653_1_alg».proof.Proof.EdgeStage
import proofs.«146063_j29343216566653_1_alg».proof.Proof.NodeStage
import proofs.«146063_j29343216566653_1_alg».proof.Proof.Gen.KernelIdeal.Regions

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' values between items -/

/-- On entry to the edge stage: the launch memory after the first stretch of host operations. -/
abbrev edgeIn : (c : Dev nD) → (b : Ref sig .tc) → Buf (Elt F) ((c : Thread nD τ).loc b) := fun c b => V1 m c b
/-- After the edge stage: its arrays at what its write-backs leave, every other buffer as on entry. -/
def afterEdge (c : Dev nD) : Valuation τ sig (Elt F) :=
  Pipeline.withArrays spec0 c (V1 m c) fun w => (Edge.record (edgeIn m) c).arrAt w cfg0.N
theorem afterEdge_arr (c : Dev nD) (w : Fin cfg0.W) :
    afterEdge m c (Proc.devRef .tc (Pipeline.arrRef spec0 w)) = (Edge.record (edgeIn m) c).arrAt w cfg0.N := by
  unfold afterEdge; exact Pipeline.withArrays_arr spec0 launch0.win.arr_inj c _ _ w
theorem afterEdge_other (c : Dev nD) (b : Ref sig .tc) (hb : ∀ w, Pipeline.arrRef spec0 w ≠ b) :
    afterEdge m c (Proc.devRef .tc b) = V1 m c (Proc.devRef .tc b) := by
  unfold afterEdge; exact Pipeline.withArrays_of_ne spec0 c _ _ b hb
abbrev edgeOut : (c : Dev nD) → (b : Ref sig .tc) → Buf (Elt F) ((c : Thread nD τ).loc b) := fun c b => afterEdge m c b
theorem edge_left (c : Dev nD) (w : Fin cfg0.W) : (Edge.record (edgeIn m) c).arrAt w cfg0.N = edgeOut m c (Pipeline.arrRef spec0 w) :=
  (afterEdge_arr m c w).symm
theorem edge_rest (c : Dev nD) : ∀ b, b ∉ Finset.univ.image (Pipeline.arrRef spec0) → edgeOut m c b = edgeIn m c b :=
  fun b hb => afterEdge_other m c b fun w e => hb (Finset.mem_image.mpr ⟨w, Finset.mem_univ _, e⟩)

/-- On entry to the node stage: after the second stretch of host operations. -/
abbrev beforeNode : Dev nD → Valuation τ sig (Elt F) := fun c => StableHlo.after hostOps1 (afterEdge m c)
abbrev nodeIn : (c : Dev nD) → (b : Ref sig .tc) → Buf (Elt F) ((c : Thread nD τ).loc b) := fun c b => beforeNode m c b
/-- After the node stage. -/
def afterNode (c : Dev nD) : Valuation τ sig (Elt F) :=
  Pipeline.withArrays spec1 c (beforeNode m c) fun w => (Node.record (nodeIn m) c).arrAt w cfg1.N
theorem afterNode_arr (c : Dev nD) (w : Fin cfg1.W) :
    afterNode m c (Proc.devRef .tc (Pipeline.arrRef spec1 w)) = (Node.record (nodeIn m) c).arrAt w cfg1.N := by
  unfold afterNode; exact Pipeline.withArrays_arr spec1 launch1.win.arr_inj c _ _ w
theorem afterNode_other (c : Dev nD) (b : Ref sig .tc) (hb : ∀ w, Pipeline.arrRef spec1 w ≠ b) :
    afterNode m c (Proc.devRef .tc b) = beforeNode m c (Proc.devRef .tc b) := by
  unfold afterNode; exact Pipeline.withArrays_of_ne spec1 c _ _ b hb
abbrev nodeOut : (c : Dev nD) → (b : Ref sig .tc) → Buf (Elt F) ((c : Thread nD τ).loc b) := fun c b => afterNode m c b
theorem node_left (c : Dev nD) (w : Fin cfg1.W) : (Node.record (nodeIn m) c).arrAt w cfg1.N = nodeOut m c (Pipeline.arrRef spec1 w) :=
  (afterNode_arr m c w).symm
theorem node_rest (c : Dev nD) : ∀ b, b ∉ Finset.univ.image (Pipeline.arrRef spec1) → nodeOut m c b = nodeIn m c b :=
  fun b hb => afterNode_other m c b fun w e => hb (Finset.mem_image.mpr ⟨w, Finset.mem_univ _, e⟩)

/-! ## What an item leaves alone

A stage changes its output array only: an input window's array comes back as it went in, and a buffer
that is no window's array is not touched. A stretch of host operations changes only what it writes. -/

theorem edge_keeps (c : Dev nD) (b : Ref sig .tc) (hb : b ≠ main_v19) : edgeOut m c b = edgeIn m c b := by
  by_cases h : ∃ w, Pipeline.arrRef spec0 w = b
  · obtain ⟨w, rfl⟩ := h
    have hin : ∀ w : Fin cfg0.W, Pipeline.arrRef spec0 w ≠ main_v19 → (cfg0.win w).isOut = false := by decide
    exact (afterEdge_arr m c w).trans (((Edge.record (edgeIn m) c).arrAt_in w (hin w hb) _).trans (Edge.record_A (edgeIn m) c w))
  · exact afterEdge_other m c b fun w e => h ⟨w, e⟩

theorem node_keeps (c : Dev nD) (b : Ref sig .tc) (hb : b ≠ main_v24) : nodeOut m c b = nodeIn m c b := by
  by_cases h : ∃ w, Pipeline.arrRef spec1 w = b
  · obtain ⟨w, rfl⟩ := h
    have hin : ∀ w : Fin cfg1.W, Pipeline.arrRef spec1 w ≠ main_v24 → (cfg1.win w).isOut = false := by decide
    exact (afterNode_arr m c w).trans (((Node.record (nodeIn m) c).arrAt_in w (hin w hb) _).trans (Node.record_A (nodeIn m) c w))
  · exact afterNode_other m c b fun w e => h ⟨w, e⟩

theorem first_stretch_keeps (c : Dev nD) (b : Ref sig .tc) (hb : b ∉ hostOps0_W) : edgeIn m c b = m ((c : Thread nD τ).loc b) :=
  V1_of m c b hb
theorem second_stretch_keeps (c : Dev nD) (b : Ref sig .tc) (hb : b ∉ hostOps1_W) : nodeIn m c b = edgeOut m c b :=
  StableHlo.after_of_writes_sub hostOps1 _ hostOps1_writes hb

/-- A buffer that no host operation writes and that is no stage's output ends as launched: so every argument. -/
theorem kept_to_the_end (c : Dev nD) (b : Ref sig .tc) (h0 : b ∉ hostOps0_W) (h1 : b ∉ hostOps1_W) (h19 : b ≠ main_v19) (h24 : b ≠ main_v24) :
    nodeOut m c b = m ((c : Thread nD τ).loc b) :=
  (node_keeps m c b h24).trans ((second_stretch_keeps m c b h1).trans ((edge_keeps m c b h19).trans (first_stretch_keeps m c b h0)))

/-! ## The stages as items of the run -/

abbrev noTables : (p : Fin 2) → (pcfgs (F := F) p).Adm := fun p => (cfgs p).toPCfg_adm
/-- Each stage's record, at the values the stage is entered from. -/
def records : (p : Fin 2) → (c : Dev nD) → Dat τ (Elt F) Unit ℕ (UR sig nD τ) ℕ (Pipeline.pin (pcfgs (F := F)) noTables p) c
  | ⟨0, _⟩ => fun c => Edge.record (edgeIn m) c
  | ⟨1, _⟩ => fun c => Node.record (nodeIn m) c
abbrev 𝒱 : Variants := Variants.none
abbrev Lv : GSem nD τ sig → Finset Unit := fun _ => ∅
abbrev lv : GSem nD τ sig → Unit → ℕ := fun _ _ => 0
/-- What rides beside the buffers through every item: the generator register at some state, and nothing owed. -/
abbrev riding (c : Dev nD) : sProp 𝕄 := iprop((∃ r, prngReg c r) ∗ ∃ W, owes (c : Thread nD τ) (0 : CellTallies nD τ sig Unit) W)
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱 Lv lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W riding
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev atEnd (c : Dev nD) : sProp 𝕄 := iprop(StableHlo.held (c : Thread nD τ) (Pipeline.ucRefs τ sig) (afterNode m c) ∗ ∃ r, prngReg c r)

set_option backward.isDefEq.respectTransparency.types false in
def edgeSeg : Pipeline.RegionSeg (pcfgs (F := F)) noTables (records m) () defs₀ 𝒱 Lv lv 0 where
  win := launch0.win.to₀
  block_pos := launch0.block_pos
  stage_whole := launch0.stage_whole
  K := PEmpty
  osem k := k.elim
  ho := Pipeline.OwnSemFacts.none _
  hbody c := (Edge.obligation (edgeIn m) c).loose
  hwaits := Pipeline.hwaits_of_owed_zero _ _ _ _ Lv lv 0 fun _ _ => rfl
  pre c := iprop(StableHlo.held (c : Thread nD τ) (Pipeline.ucRefs τ sig) (V1 m c) ∗ riding c)
  post c := iprop(StableHlo.held (c : Thread nD τ) (Pipeline.ucRefs τ sig) (afterEdge m c) ∗ riding c)
  X c := iprop(∃ r, prngReg c r)
  Y c := iprop(∃ r, prngReg c r)
  Z c := Pipeline.unscopedRest (Ix := Unit) (Name := ℕ) (U := UR sig nD τ) (Lvl := ℕ) spec0 c (edgeIn m c)
  hentry c := by
    rw [Pipeline.ownSems0_none]
    have hsplit := Pipeline.arrays_of_unscopedBufs (p := 0) (pcfgs (F := F)) noTables (records m) launch0.win launch0.arr_whole c
      ((records m 0 c).share_full fun _ => rfl) (edgeIn m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (records m 0 c).Φ 0 = Pipeline.ΦA spec0 c from rfl]; unfold Pipeline.ΦA
    iintro ⟨Hp, -, Hr⟩
    isplitl [Hr]; · iexact Hr
    iexact Hp
  hout c := by
    rw [Pipeline.ownSems0_none, show (records m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (records m) ((records m 0 c).share_full fun _ => rfl)
      (edgeIn m c) (edgeOut m c) ((records m 0 c).arrAt · cfg0.N) (edge_left m c) (edge_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def nodeSeg : Pipeline.RegionSeg (pcfgs (F := F)) noTables (records m) () defs₀ 𝒱 Lv lv 1 where
  win := launch1.win.to₀
  block_pos := launch1.block_pos
  stage_whole := launch1.stage_whole
  K := PEmpty
  osem k := k.elim
  ho := Pipeline.OwnSemFacts.none _
  hbody c := (Node.obligation (nodeIn m) c).loose
  hwaits := Pipeline.hwaits_of_owed_zero _ _ _ _ Lv lv 1 fun _ _ => rfl
  pre c := iprop(StableHlo.held (c : Thread nD τ) (Pipeline.ucRefs τ sig) (beforeNode m c) ∗ riding c)
  post c := iprop(atEnd m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (nodeIn m c)
  hentry c := by
    rw [Pipeline.ownSems0_none]
    have hsplit := Pipeline.arrays_of_unscopedBufs (p := 1) (pcfgs (F := F)) noTables (records m) launch1.win launch1.arr_whole c
      ((records m 1 c).share_full fun _ => rfl) (nodeIn m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (records m 1 c).Φ 0 = Pipeline.ΦA spec1 c from rfl]; unfold Pipeline.ΦA
    iintro ⟨Hp, -, Hr⟩
    isplitl [Hr]; · iexact Hr
    iexact Hp
  hout c := by
    rw [Pipeline.ownSems0_none, show (records m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (records m) ((records m 1 c).share_full fun _ => rfl)
      (nodeIn m c) (nodeOut m c) ((records m 1 c).arrAt · cfg1.N) (node_left m c) (node_rest m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev items : List (Pipeline.Seg (pcfgs (F := F)) noTables (records m) () defs₀ 𝒱 Lv lv) :=
  [ .host (stretch hostOps0 hostOps0_sub hostOps0_fresh (V0 m)),
    .region (edgeSeg m),
    .host (stretch hostOps1 hostOps1_sub hostOps1_fresh (afterEdge m)),
    .region (nodeSeg m) ]
theorem main_is_items (c : Dev nD) : main (F := F) c = Pipeline.Seg.run (items m) := (main_chain c).trans (by chain_rfl)

set_option backward.isDefEq.respectTransparency.types false in
/-- Every weakly fair execution from memory `m` with zero counters ends, nothing faulting, with every buffer outside the
    kernels' scratch memory at its value after the node stage. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = afterNode m c b) :=
  Pipeline.θ_run_regions_kit (pcfgs (F := F)) noTables (records m) () cellOf_inj emb₁ defs₀ 𝒱 Lv lv m ρ main (items m)
    (fun c Q => by rw [main_is_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ riding c)) (Tₙ := atEnd m)
    (hch := ⟨fun _ => .rfl, fun _ => .rfl, fun _ => .rfl, fun _ => .rfl, fun _ => .rfl⟩)
    (hinit := by
      refine Pipeline.initEach Lv lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = afterNode m c b)
    (hfin := fun c s' => by
      iintro ⟨⟨Hh, -⟩, HSI⟩
      unfold StableHlo.held
      imodintro
      iapply (pointsTo_read_all (Pipeline.ucRefs τ sig) (fun b => (((c : Thread nD τ)).1, b)) (afterNode m c) s')
      isplitl [Hh] <;> iassumption)
    (hQ := fun s h => h)

/-- Every weakly fair execution ends, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (kept_to_the_end m c main_arg0 (by decide) (by decide) (by decide) (by decide)),
      (h c _ (mem_uc main_arg1 (by decide))).trans (kept_to_the_end m c main_arg1 (by decide) (by decide) (by decide) (by decide)),
      (h c _ (mem_uc main_arg2 (by decide))).trans (kept_to_the_end m c main_arg2 (by decide) (by decide) (by decide) (by decide)),
      (h c _ (mem_uc main_arg3 (by decide))).trans (kept_to_the_end m c main_arg3 (by decide) (by decide) (by decide) (by decide)),
      (h c _ (mem_uc main_arg4 (by decide))).trans (kept_to_the_end m c main_arg4 (by decide) (by decide) (by decide) (by decide)),
      (h c _ (mem_uc main_arg5 (by decide))).trans (kept_to_the_end m c main_arg5 (by decide) (by decide) (by decide) (by decide)),
      (h c _ (mem_uc main_arg6 (by decide))).trans (kept_to_the_end m c main_arg6 (by decide) (by decide) (by decide) (by decide)),
      (h c _ (mem_uc main_arg7 (by decide))).trans (kept_to_the_end m c main_arg7 (by decide) (by decide) (by decide) (by decide)),
      (h c _ (mem_uc main_arg8 (by decide))).trans (kept_to_the_end m c main_arg8 (by decide) (by decide) (by decide) (by decide)),
      (h c _ (mem_uc main_arg9 (by decide))).trans (kept_to_the_end m c main_arg9 (by decide) (by decide) (by decide) (by decide)),
      (h c _ (mem_uc main_arg10 (by decide))).trans (kept_to_the_end m c main_arg10 (by decide) (by decide) (by decide) (by decide))⟩)
    (run_all m ρ)

end Cert.KernelIdeal.Whole

end
-- ==== Proof.Spec.lean ====
/-
  The two-layer perceptron at one entry. For an input matrix X, weights W1, W2 and bias rows b1, b2, the
  entry (r, o) of the output is
      (∑ k, max ((∑ j, X r j · W1 j k) + b1 k) 0 · W2 k o) + b2 o
  over the extended reals. It reads X only along row r, so a block of rows cut out of a taller matrix
  has, at its own row, the entry the taller matrix has at the corresponding row.
-/
import Idealize.ShloMosaic.PureOps.Ideal.Laws

noncomputable section

namespace Cert.Spec

/-- Entry (r, o) of the perceptron of X with weights W1, W2 and biases b1, b2. -/
def perceptron {M D H O : ℕ} (X : Fin M → Fin D → EReal) (W1 : Fin D → Fin H → EReal) (b1 : Fin H → EReal)
    (W2 : Fin H → Fin O → EReal) (b2 : Fin O → EReal) (r : Fin M) (o : Fin O) : EReal :=
  (∑ k : Fin H, max ((∑ j : Fin D, X r j * W1 j k) + b1 k) 0 * W2 k o) + b2 o

/-- The entry depends on X through row r alone. -/
theorem perceptron_row {M M' D H O : ℕ} (X : Fin M → Fin D → EReal) (X' : Fin M' → Fin D → EReal)
    (W1 : Fin D → Fin H → EReal) (b1 : Fin H → EReal) (W2 : Fin H → Fin O → EReal) (b2 : Fin O → EReal)
    (r : Fin M) (r' : Fin M') (h : ∀ j, X r j = X' r' j) (o : Fin O) :
    perceptron X W1 b1 W2 b2 r o = perceptron X' W1 b1 W2 b2 r' o := by
  unfold perceptron
  simp only [h]

end Cert.Spec

end
-- ==== Proof.KernelPoint.lean ====
/-
  What the two kernel bodies store, entry by entry, at the ideal values. Each body is a two-layer perceptron:
  the rows of X times W1, plus the bias row b1, the maximum with 0, times W2, plus the bias row b2. Read at
  an entry (p, o) of what is stored, every operation of the body is its textbook one: a product into a zero
  accumulator is the sum over the contracted coordinate of the products of the entries, a bias row cast to
  one row and repeated down the rows reads the bias at the column, a cast to the same shape and a change of
  format are the identity, and the maximum with the zero splat is the maximum with 0. So the entry is
  Cert.Spec.perceptron of the blocks' entries at (p, o).
-/
import proofs.«146063_j29343216566653_1_alg».proof.Proof.Gen.KernelIdeal.Skeleton
import proofs.«146063_j29343216566653_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option synthInstance.maxSize 4096

noncomputable section

namespace Cert.KernelPoint

open Idealize.ShloMosaic Idealize.ShloMosaic.ValueIdx Cert.KernelIdeal Cert.KernelIdeal.Gen

/-! ## A rows-by-columns product read at an entry -/

section Plain
variable {m k n : ℕ}

/-- The left operand's row coordinate is the entry's row. -/
theorem plain_lhs_0 (i : (⟨2, ![m, n]⟩ : Shape).Idx) (q : (DotDims.plain m k n).contr.Idx) :
    ((DotDims.plain m k n).lhsIdx i q 0).val = (i 0).val := rfl
/-- The left operand's column coordinate is the contracted coordinate. -/
theorem plain_lhs_1 (i : (⟨2, ![m, n]⟩ : Shape).Idx) (q : (DotDims.plain m k n).contr.Idx) :
    ((DotDims.plain m k n).lhsIdx i q 1).val = (q ⟨0, Nat.one_pos⟩).val :=
  (DotDims.plain m k n).lhsIdx_val_of_single rfl i q
/-- The right operand's row coordinate is the contracted coordinate. -/
theorem plain_rhs_0 (i : (⟨2, ![m, n]⟩ : Shape).Idx) (q : (DotDims.plain m k n).contr.Idx) :
    ((DotDims.plain m k n).rhsIdx i q 0).val = (q ⟨0, Nat.one_pos⟩).val :=
  (DotDims.plain m k n).rhsIdx_val_of_single rfl i q
/-- The right operand's column coordinate is the entry's column. -/
theorem plain_rhs_1 (i : (⟨2, ![m, n]⟩ : Shape).Idx) (q : (DotDims.plain m k n).contr.Idx) :
    ((DotDims.plain m k n).rhsIdx i q 1).val = (i 1).val := rfl

/-- The product of an m×k by a k×n matrix into a zero accumulator, read at (p, q), is the sum over the contracted
    coordinate c of A(p, c) · B(c, q). -/
theorem matmul_plain_apply (d : DotDims ⟨2, ![m, k]⟩ ⟨2, ![k, n]⟩ ⟨2, ![m, n]⟩) (hd : d = DotDims.plain m k n)
    {φ₁ φ₂ : FTy} (A : FVec Ideal ⟨2, ![m, k]⟩ φ₁) (B : FVec Ideal ⟨2, ![k, n]⟩ φ₂) (p : Fin m) (q : Fin n) :
    matmul d none A B (constant (F := Ideal) ⟨2, ![m, n]⟩ .f32 0x00000000#32) (ix2 p q)
      = ∑ c : Fin k, A (ix2 p c) * B (ix2 c q) := by
  subst hd
  show FloatOps.matmul (DotDims.plain m k n) none A B (constant (F := Ideal) ⟨2, ![m, n]⟩ .f32 0x00000000#32) (ix2 p q) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 p q) ((contrEquiv1 (DotDims.plain m k n) k rfl rfl).symm c) = ix2 p c :=
    funext fun a => Fin.ext (by
      match a with
      | ⟨0, _⟩ => exact plain_lhs_0 _ _
      | ⟨1, _⟩ => exact (plain_lhs_1 _ _).trans hc)
  have er : (DotDims.plain m k n).rhsIdx (ix2 p q) ((contrEquiv1 (DotDims.plain m k n) k rfl rfl).symm c) = ix2 c q :=
    funext fun a => Fin.ext (by
      match a with
      | ⟨0, _⟩ => exact (plain_rhs_0 _ _).trans hc
      | ⟨1, _⟩ => exact plain_rhs_1 _ _)
  rw [el, er]

/-- The same with both operands changed of format first: at the ideal values a change of format is the identity. -/
theorem matmul_plain_truncf_apply (d : DotDims ⟨2, ![m, k]⟩ ⟨2, ![k, n]⟩ ⟨2, ![m, n]⟩) (hd : d = DotDims.plain m k n)
    (A : FVec Ideal ⟨2, ![m, k]⟩ .f32) (B : FVec Ideal ⟨2, ![k, n]⟩ .f32) (h : FTy.bits .bf16 < FTy.bits .f32)
    (p : Fin m) (q : Fin n) :
    matmul d none (truncf .bf16 A h) (truncf .bf16 B h) (constant (F := Ideal) ⟨2, ![m, n]⟩ .f32 0x00000000#32) (ix2 p q)
      = ∑ c : Fin k, A (ix2 p c) * B (ix2 c q) :=
  matmul_plain_apply d hd (truncf .bf16 A h) (truncf .bf16 B h) p q

end Plain

/-! ## A bias row repeated down the rows -/

/-- A vector of n entries cast to one row and repeated down m rows reads, at (p, q), the vector at q. -/
theorem bias_row_apply {α : Type} {m n : ℕ} (v : (⟨1, ![n]⟩ : Shape).Idx → α)
    (h1 : (⟨1, ![n]⟩ : Shape).ShapeCasts ⟨2, ![1, n]⟩) (h2 : (⟨2, ![1, n]⟩ : Shape).Broadcasts ⟨2, ![m, n]⟩)
    (p : Fin m) (q : Fin n) :
    broadcastTo ⟨2, ![m, n]⟩ (shapeCast ⟨2, ![1, n]⟩ v h1) h2 (ix2 p q) = v (ix1 q) :=
  (broadcastTo_1b_ab_apply (shapeCast ⟨2, ![1, n]⟩ v h1) h2 p q).trans (shapeCast_a_1a_apply v h1 0 q)

/-! ## The two-layer perceptron as a kernel body computes it, at any sizes -/

section Perceptron
variable {M D H O : ℕ}

/-- The hidden layer as a body computes it: X cast to its own shape, X and W1 changed of format, their product into
    a zero accumulator, plus the bias row b1, the maximum with the zero splat. -/
def hidden (d1 : DotDims ⟨2, ![M, D]⟩ ⟨2, ![D, H]⟩ ⟨2, ![M, H]⟩)
    (hX : (⟨2, ![M, D]⟩ : Shape).ShapeCasts ⟨2, ![M, D]⟩) (hlt : FTy.bits .bf16 < FTy.bits .f32)
    (hc1 : (⟨1, ![H]⟩ : Shape).ShapeCasts ⟨2, ![1, H]⟩) (hb1 : (⟨2, ![1, H]⟩ : Shape).Broadcasts ⟨2, ![M, H]⟩)
    (X : FVec Ideal ⟨2, ![M, D]⟩ .f32) (W1 : FVec Ideal ⟨2, ![D, H]⟩ .f32) (b1 : FVec Ideal ⟨1, ![H]⟩ .f32) :
    FVec Ideal ⟨2, ![M, H]⟩ .f32 :=
  maximumf (addf (matmul d1 none (truncf .bf16 (shapeCast ⟨2, ![M, D]⟩ X hX) hlt) (truncf .bf16 W1 hlt)
        (constant ⟨2, ![M, H]⟩ .f32 0x00000000#32))
      (broadcastTo ⟨2, ![M, H]⟩ (shapeCast ⟨2, ![1, H]⟩ b1 hc1) hb1))
    (broadcast ⟨2, ![M, H]⟩ (Scalar.ofBits .f32 0x00000000#32))

/-- The hidden layer at (p, k): the maximum with 0 of row p of X times column k of W1, plus b1 at k. -/
theorem hidden_apply (d1 : DotDims ⟨2, ![M, D]⟩ ⟨2, ![D, H]⟩ ⟨2, ![M, H]⟩) (hd1 : d1 = DotDims.plain M D H)
    (hX : (⟨2, ![M, D]⟩ : Shape).ShapeCasts ⟨2, ![M, D]⟩) (hlt : FTy.bits .bf16 < FTy.bits .f32)
    (hc1 : (⟨1, ![H]⟩ : Shape).ShapeCasts ⟨2, ![1, H]⟩) (hb1 : (⟨2, ![1, H]⟩ : Shape).Broadcasts ⟨2, ![M, H]⟩)
    (X : FVec Ideal ⟨2, ![M, D]⟩ .f32) (W1 : FVec Ideal ⟨2, ![D, H]⟩ .f32) (b1 : FVec Ideal ⟨1, ![H]⟩ .f32)
    (p : Fin M) (k : Fin H) :
    hidden d1 hX hlt hc1 hb1 X W1 b1 (ix2 p k) = max ((∑ j : Fin D, X (ix2 p j) * W1 (ix2 j k)) + b1 (ix1 k)) 0 := by
  unfold hidden
  rw [shapeCast_self]
  show max (matmul d1 none (truncf .bf16 X hlt) (truncf .bf16 W1 hlt) (constant (F := Ideal) ⟨2, ![M, H]⟩ .f32 0x00000000#32) (ix2 p k)
      + broadcastTo ⟨2, ![M, H]⟩ (shapeCast ⟨2, ![1, H]⟩ b1 hc1) hb1 (ix2 p k))
    (Ideal.ofBits .f32 0x00000000#32) = _
  rw [matmul_plain_truncf_apply d1 hd1 X W1 hlt p k, bias_row_apply b1 hc1 hb1 p k, Ideal.ofBits_zero_f32]

/-- The whole body as it is computed: the hidden layer and W2 changed of format, their product into a zero accumulator,
    plus the bias row b2. -/
def body (d1 : DotDims ⟨2, ![M, D]⟩ ⟨2, ![D, H]⟩ ⟨2, ![M, H]⟩) (d2 : DotDims ⟨2, ![M, H]⟩ ⟨2, ![H, O]⟩ ⟨2, ![M, O]⟩)
    (hX : (⟨2, ![M, D]⟩ : Shape).ShapeCasts ⟨2, ![M, D]⟩) (hlt : FTy.bits .bf16 < FTy.bits .f32)
    (hc1 : (⟨1, ![H]⟩ : Shape).ShapeCasts ⟨2, ![1, H]⟩) (hb1 : (⟨2, ![1, H]⟩ : Shape).Broadcasts ⟨2, ![M, H]⟩)
    (hc2 : (⟨1, ![O]⟩ : Shape).ShapeCasts ⟨2, ![1, O]⟩) (hb2 : (⟨2, ![1, O]⟩ : Shape).Broadcasts ⟨2, ![M, O]⟩)
    (X : FVec Ideal ⟨2, ![M, D]⟩ .f32) (W1 : FVec Ideal ⟨2, ![D, H]⟩ .f32) (b1 : FVec Ideal ⟨1, ![H]⟩ .f32)
    (W2 : FVec Ideal ⟨2, ![H, O]⟩ .f32) (b2 : FVec Ideal ⟨1, ![O]⟩ .f32) : FVec Ideal ⟨2, ![M, O]⟩ .f32 :=
  addf (matmul d2 none (truncf .bf16 (hidden d1 hX hlt hc1 hb1 X W1 b1) hlt) (truncf .bf16 W2 hlt)
      (constant ⟨2, ![M, O]⟩ .f32 0x00000000#32))
    (broadcastTo ⟨2, ![M, O]⟩ (shapeCast ⟨2, ![1, O]⟩ b2 hc2) hb2)

/-- The body at (p, o) is the perceptron of the operands' entries. -/
theorem body_apply (d1 : DotDims ⟨2, ![M, D]⟩ ⟨2, ![D, H]⟩ ⟨2, ![M, H]⟩) (hd1 : d1 = DotDims.plain M D H)
    (d2 : DotDims ⟨2, ![M, H]⟩ ⟨2, ![H, O]⟩ ⟨2, ![M, O]⟩) (hd2 : d2 = DotDims.plain M H O)
    (hX : (⟨2, ![M, D]⟩ : Shape).ShapeCasts ⟨2, ![M, D]⟩) (hlt : FTy.bits .bf16 < FTy.bits .f32)
    (hc1 : (⟨1, ![H]⟩ : Shape).ShapeCasts ⟨2, ![1, H]⟩) (hb1 : (⟨2, ![1, H]⟩ : Shape).Broadcasts ⟨2, ![M, H]⟩)
    (hc2 : (⟨1, ![O]⟩ : Shape).ShapeCasts ⟨2, ![1, O]⟩) (hb2 : (⟨2, ![1, O]⟩ : Shape).Broadcasts ⟨2, ![M, O]⟩)
    (X : FVec Ideal ⟨2, ![M, D]⟩ .f32) (W1 : FVec Ideal ⟨2, ![D, H]⟩ .f32) (b1 : FVec Ideal ⟨1, ![H]⟩ .f32)
    (W2 : FVec Ideal ⟨2, ![H, O]⟩ .f32) (b2 : FVec Ideal ⟨1, ![O]⟩ .f32) (p : Fin M) (o : Fin O) :
    body d1 d2 hX hlt hc1 hb1 hc2 hb2 X W1 b1 W2 b2 (ix2 p o)
      = Cert.Spec.perceptron (fun (p : Fin M) (j : Fin D) => X (ix2 p j)) (fun (j : Fin D) (k : Fin H) => W1 (ix2 j k))
          (fun (k : Fin H) => b1 (ix1 k)) (fun (k : Fin H) (o : Fin O) => W2 (ix2 k o)) (fun (o : Fin O) => b2 (ix1 o)) p o := by
  show matmul d2 none (truncf .bf16 (hidden d1 hX hlt hc1 hb1 X W1 b1) hlt) (truncf .bf16 W2 hlt)
        (constant (F := Ideal) ⟨2, ![M, O]⟩ .f32 0x00000000#32) (ix2 p o)
      + broadcastTo ⟨2, ![M, O]⟩ (shapeCast ⟨2, ![1, O]⟩ b2 hc2) hb2 (ix2 p o)
    = (∑ k : Fin H, max ((∑ j : Fin D, X (ix2 p j) * W1 (ix2 j k)) + b1 (ix1 k)) 0 * W2 (ix2 k o)) + b2 (ix1 o)
  rw [matmul_plain_truncf_apply d2 hd2 (hidden d1 hX hlt hc1 hb1 X W1 b1) W2 hlt p o, bias_row_apply b2 hc2 hb2 p o]
  simp only [hidden_apply d1 hd1]

end Perceptron

/-! ## The two kernels: the same body at two sizes -/

/-- THE EDGE KERNEL'S STORE AT (p, o) (blocks of 6400 rows, 160 → 128 → 64): the perceptron of the blocks' entries.
    Its two products' dimension numbers are the plain rows-by-columns ones. -/
theorem edge_point (X : Vec Ideal S6400x160 .f32) (W1 : Vec Ideal S160x128 .f32) (b1 : Vec Ideal S128 .f32)
    (W2 : Vec Ideal S128x64 .f32) (b2 : Vec Ideal S64 .f32) (p : Fin 6400) (o : Fin 64) :
    k0_pay1 (F := Ideal) X W1 b1 W2 b2 (ix2 p o)
      = Cert.Spec.perceptron (fun (p : Fin 6400) (j : Fin 160) => X (ix2 p j)) (fun (j : Fin 160) (k : Fin 128) => W1 (ix2 j k))
          (fun (k : Fin 128) => b1 (ix1 k)) (fun (k : Fin 128) (o : Fin 64) => W2 (ix2 k o)) (fun (o : Fin 64) => b2 (ix1 o)) p o :=
  body_apply dot_S6400x160_S160x128_S6400x128_1_0_0_1_n_n rfl dot_S6400x128_S128x64_S6400x64_1_0_0_1_n_n rfl
    shapeCasts_S6400x160_S6400x160 bitsLt_bf16_f32 shapeCasts_S128_S1x128 broadcasts_S1x128_S6400x128
    shapeCasts_S64_S1x64 broadcasts_S1x64_S6400x64 X W1 b1 W2 b2 p o

/-- THE NODE KERNEL'S STORE AT (p, o) (blocks of 5000 rows, 128 → 128 → 64): the same. -/
theorem node_point (X : Vec Ideal S5000x128 .f32) (W1 : Vec Ideal S128x128 .f32) (b1 : Vec Ideal S128 .f32)
    (W2 : Vec Ideal S128x64 .f32) (b2 : Vec Ideal S64 .f32) (p : Fin 5000) (o : Fin 64) :
    k1_pay1 (F := Ideal) X W1 b1 W2 b2 (ix2 p o)
      = Cert.Spec.perceptron (fun (p : Fin 5000) (j : Fin 128) => X (ix2 p j)) (fun (j : Fin 128) (k : Fin 128) => W1 (ix2 j k))
          (fun (k : Fin 128) => b1 (ix1 k)) (fun (k : Fin 128) (o : Fin 64) => W2 (ix2 k o)) (fun (o : Fin 64) => b2 (ix1 o)) p o :=
  body_apply dot_S5000x128_S128x128_S5000x128_1_0_0_1_n_n rfl dot_S5000x128_S128x64_S5000x64_1_0_0_1_n_n rfl
    shapeCasts_S5000x128_S5000x128 bitsLt_bf16_f32 shapeCasts_S128_S1x128 broadcasts_S1x128_S5000x128
    shapeCasts_S64_S1x64 broadcasts_S1x64_S5000x64 X W1 b1 W2 b2 p o

end Cert.KernelPoint

end
-- ==== Proof.RefPoint.lean ====
/-
  The reference's two result arrays, entry by entry, at the ideal values. Entry (r, o) of the edge embedding is the
  two-layer perceptron of row r of the edge inputs with the edge weights and biases; entry (r, o) of the node embedding
  is the two-layer perceptron of row r of the node inputs with the node weights and biases. The edge inputs (the two
  endpoint rows joined with the edge features) and the node inputs (the node features joined with the summed edge
  embeddings) enter only through their entries and are not opened.
-/
import proofs.«146063_j29343216566653_1_alg».proof.Proof.Gen.ReferenceIdeal.Read
import proofs.«146063_j29343216566653_1_alg».proof.Proof.Spec
import Idealize.ShloMosaic.Lib.ValueIdx
import Idealize.ShloMosaic.PureOps.Ideal.Laws

noncomputable section

namespace Cert.RefPoint

open Idealize.ShloMosaic Idealize.ShloMosaic.ValueIdx Cert.ReferenceIdeal Cert.ReferenceIdeal.Read

/-! ## The edge embedding -/

/-- The edge stage's hidden layer at (r, k): the positive part of row r of the edge inputs against column k of the
    first weights, plus the first bias at k. -/
theorem edge_hidden (x0 : (⟨S50000x64, .f32⟩ : BufTy).Contents (Elt Ideal)) (x1 : (⟨S2x1600000, .i32⟩ : BufTy).Contents (Elt Ideal)) (x2 : (⟨S1600000x32, .f32⟩ : BufTy).Contents (Elt Ideal))
    (x3 : (⟨S160x128, .f32⟩ : BufTy).Contents (Elt Ideal)) (x4 : (⟨S128, .f32⟩ : BufTy).Contents (Elt Ideal))
    (r : Fin 1600000) (k : Fin 128) :
    val_main_v23 (F := Ideal) x0 x1 x2 x3 x4 (ix2 r k)
      = max ((∑ j : Fin 160, val_main_v18 (F := Ideal) x0 x1 x2 (ix2 r j) * x3 (ix2 j k)) + x4 (ix1 k)) 0 := by
  have e1 : ∀ j : Fin 160, lidx_main_v19 (ix2 r k) j = ix2 r j := fun j => funext fun a => by
    match a with | ⟨0, _⟩ => rfl | ⟨1, _⟩ => rfl
  have e2 : ∀ j : Fin 160, ridx_main_v19 (ix2 r k) j = ix2 j k := fun j => funext fun a => by
    match a with | ⟨0, _⟩ => rfl | ⟨1, _⟩ => rfl
  have e3 : idx_main_v20 (idx_main_v21 (ix2 r k)) = ix1 k := funext fun a => by
    match a with | ⟨0, _⟩ => rfl
  rw [val_main_v23_apply, val_main_v22_apply, val_main_v19_apply, val_main_v21_apply, val_main_v20_apply,
    val_main_call0_v0_apply, val_main_call0_cst_apply]
  simp only [e1, e2, e3, Ideal.addf_def, Ideal.maximumf_def, Ideal.ofBits_def, Ideal.ofBits_zero_f32]

/-- Entry (r, o) of the edge embedding is the perceptron of row r of the edge inputs. -/
theorem edge_ref (x0 : (⟨S50000x64, .f32⟩ : BufTy).Contents (Elt Ideal)) (x1 : (⟨S2x1600000, .i32⟩ : BufTy).Contents (Elt Ideal)) (x2 : (⟨S1600000x32, .f32⟩ : BufTy).Contents (Elt Ideal))
    (x3 : (⟨S160x128, .f32⟩ : BufTy).Contents (Elt Ideal)) (x4 : (⟨S128, .f32⟩ : BufTy).Contents (Elt Ideal))
    (x5 : (⟨S128x64, .f32⟩ : BufTy).Contents (Elt Ideal)) (x6 : (⟨S64, .f32⟩ : BufTy).Contents (Elt Ideal))
    (r : Fin 1600000) (o : Fin 64) :
    val_main_v27 (F := Ideal) x0 x1 x2 x3 x4 x5 x6 (ix2 r o)
      = Cert.Spec.perceptron (fun r j => val_main_v18 (F := Ideal) x0 x1 x2 (ix2 r j)) (fun j k => x3 (ix2 j k))
          (fun k => x4 (ix1 k)) (fun k o => x5 (ix2 k o)) (fun o => x6 (ix1 o)) r o := by
  have e1 : ∀ k : Fin 128, lidx_main_v24 (ix2 r o) k = ix2 r k := fun k => funext fun a => by
    match a with | ⟨0, _⟩ => rfl | ⟨1, _⟩ => rfl
  have e2 : ∀ k : Fin 128, ridx_main_v24 (ix2 r o) k = ix2 k o := fun k => funext fun a => by
    match a with | ⟨0, _⟩ => rfl | ⟨1, _⟩ => rfl
  have e3 : idx_main_v25 (idx_main_v26 (ix2 r o)) = ix1 o := funext fun a => by
    match a with | ⟨0, _⟩ => rfl
  unfold Cert.Spec.perceptron
  rw [val_main_v27_apply, val_main_v24_apply, val_main_v26_apply, val_main_v25_apply]
  simp only [e1, e2, e3, edge_hidden, Ideal.addf_def]

/-! ## The node embedding -/

/-- The node stage's hidden layer at (r, k): the positive part of row r of the node inputs against column k of the
    first weights, plus the first bias at k. -/
theorem node_hidden (x0 : (⟨S50000x64, .f32⟩ : BufTy).Contents (Elt Ideal)) (x1 : (⟨S2x1600000, .i32⟩ : BufTy).Contents (Elt Ideal)) (x2 : (⟨S1600000x32, .f32⟩ : BufTy).Contents (Elt Ideal))
    (x3 : (⟨S160x128, .f32⟩ : BufTy).Contents (Elt Ideal)) (x4 : (⟨S128, .f32⟩ : BufTy).Contents (Elt Ideal))
    (x5 : (⟨S128x64, .f32⟩ : BufTy).Contents (Elt Ideal)) (x6 : (⟨S64, .f32⟩ : BufTy).Contents (Elt Ideal))
    (x7 : (⟨S128x128, .f32⟩ : BufTy).Contents (Elt Ideal)) (x8 : (⟨S128, .f32⟩ : BufTy).Contents (Elt Ideal))
    (r : Fin 50000) (k : Fin 128) :
    val_main_v36 (F := Ideal) x0 x1 x2 x3 x4 x5 x6 x7 x8 (ix2 r k)
      = max ((∑ j : Fin 128, val_main_v31 (F := Ideal) x0 x1 x2 x3 x4 x5 x6 (ix2 r j) * x7 (ix2 j k)) + x8 (ix1 k)) 0 := by
  have e1 : ∀ j : Fin 128, lidx_main_v32 (ix2 r k) j = ix2 r j := fun j => funext fun a => by
    match a with | ⟨0, _⟩ => rfl | ⟨1, _⟩ => rfl
  have e2 : ∀ j : Fin 128, ridx_main_v32 (ix2 r k) j = ix2 j k := fun j => funext fun a => by
    match a with | ⟨0, _⟩ => rfl | ⟨1, _⟩ => rfl
  have e3 : idx_main_v33 (idx_main_v34 (ix2 r k)) = ix1 k := funext fun a => by
    match a with | ⟨0, _⟩ => rfl
  rw [val_main_v36_apply, val_main_v35_apply, val_main_v32_apply, val_main_v34_apply, val_main_v33_apply,
    val_main_call1_v0_apply, val_main_call1_cst_apply]
  simp only [e1, e2, e3, Ideal.addf_def, Ideal.maximumf_def, Ideal.ofBits_def, Ideal.ofBits_zero_f32]

/-- Entry (r, o) of the node embedding is the perceptron of row r of the node inputs. -/
theorem node_ref (x0 : (⟨S50000x64, .f32⟩ : BufTy).Contents (Elt Ideal)) (x1 : (⟨S2x1600000, .i32⟩ : BufTy).Contents (Elt Ideal)) (x2 : (⟨S1600000x32, .f32⟩ : BufTy).Contents (Elt Ideal))
    (x3 : (⟨S160x128, .f32⟩ : BufTy).Contents (Elt Ideal)) (x4 : (⟨S128, .f32⟩ : BufTy).Contents (Elt Ideal))
    (x5 : (⟨S128x64, .f32⟩ : BufTy).Contents (Elt Ideal)) (x6 : (⟨S64, .f32⟩ : BufTy).Contents (Elt Ideal))
    (x7 : (⟨S128x128, .f32⟩ : BufTy).Contents (Elt Ideal)) (x8 : (⟨S128, .f32⟩ : BufTy).Contents (Elt Ideal))
    (x9 : (⟨S128x64, .f32⟩ : BufTy).Contents (Elt Ideal)) (x10 : (⟨S64, .f32⟩ : BufTy).Contents (Elt Ideal))
    (r : Fin 50000) (o : Fin 64) :
    val_main_v40 (F := Ideal) x0 x1 x2 x3 x4 x5 x6 x7 x8 x9 x10 (ix2 r o)
      = Cert.Spec.perceptron (fun r j => val_main_v31 (F := Ideal) x0 x1 x2 x3 x4 x5 x6 (ix2 r j))
          (fun j k => x7 (ix2 j k)) (fun k => x8 (ix1 k)) (fun k o => x9 (ix2 k o)) (fun o => x10 (ix1 o)) r o := by
  have e1 : ∀ k : Fin 128, lidx_main_v37 (ix2 r o) k = ix2 r k := fun k => funext fun a => by
    match a with | ⟨0, _⟩ => rfl | ⟨1, _⟩ => rfl
  have e2 : ∀ k : Fin 128, ridx_main_v37 (ix2 r o) k = ix2 k o := fun k => funext fun a => by
    match a with | ⟨0, _⟩ => rfl | ⟨1, _⟩ => rfl
  have e3 : idx_main_v38 (idx_main_v39 (ix2 r o)) = ix1 o := funext fun a => by
    match a with | ⟨0, _⟩ => rfl
  unfold Cert.Spec.perceptron
  rw [val_main_v40_apply, val_main_v37_apply, val_main_v39_apply, val_main_v38_apply]
  simp only [e1, e2, e3, node_hidden, Ideal.addf_def]

end Cert.RefPoint

end
-- ==== Proof.Final.lean ====
/-
  What the idealized kernel program leaves in its two result arrays, at the extended reals.

  The edge stage's output array is filled block by block: grid point t writes back rows 6400 t … 6400 t + 6399, each
  entry the two-layer perceptron of the matching row of the edge inputs (the kernel body's arithmetic read at an entry
  is that perceptron; so is the reference's chain of matrix products, bias rows and positive part). The blocks cover
  the array, so the array ends holding the reference's edge embedding. The host operations between the stages then
  sum these embeddings into their source nodes and join the sums to the node features, exactly as the reference does,
  so the node stage is entered with the reference's node inputs, and by the same argument over blocks of 5000 rows
  its output array ends holding the reference's node embedding. A product of matrices into a zero accumulator and a
  contraction over the shared axis are the same finite sum over the extended reals, in whatever order; no law that
  needs finiteness is used.
-/
import proofs.«146063_j29343216566653_1_alg».proof.Proof.Whole
import proofs.«146063_j29343216566653_1_alg».proof.Proof.Spec
import proofs.«146063_j29343216566653_1_alg».proof.Proof.KernelPoint
import proofs.«146063_j29343216566653_1_alg».proof.Proof.RefPoint
import Idealize.ShloMosaic.Lib.Pipeline.Value
import Idealize.ShloMosaic.Lib.ValueIdx
import Idealize.ShloMosaic.Lib.StableHlo.Run

set_option maxRecDepth 16384

noncomputable section

namespace Cert.KernelIdeal.Final

open Cert.KernelIdeal Cert.KernelIdeal.Gen Cert.KernelIdeal.Whole
open Idealize.ShloMosaic Idealize.ShloMosaic.TcCoe Idealize.ShloMosaic.ValueIdx
open Idealize.SL.Sem
open Idealize.ShloMosaic.Pipeline (Dat)

/-- Two perceptron entries agree when the input rows, the weights and the biases they read agree. -/
theorem perceptron_congr {M M' D H O : ℕ} {X : Fin M → Fin D → EReal} {X' : Fin M' → Fin D → EReal}
    {W1 W1' : Fin D → Fin H → EReal} {b1 b1' : Fin H → EReal} {W2 W2' : Fin H → Fin O → EReal} {b2 b2' : Fin O → EReal}
    (r : Fin M) (r' : Fin M') (o : Fin O) (hX : ∀ j, X r j = X' r' j) (hW1 : ∀ j k, W1 j k = W1' j k) (hb1 : ∀ k, b1 k = b1' k)
    (hW2 : ∀ k o, W2 k o = W2' k o) (hb2 : ∀ o, b2 o = b2' o) :
    Cert.Spec.perceptron X W1 b1 W2 b2 r o = Cert.Spec.perceptron X' W1' b1' W2' b2' r' o := by
  unfold Cert.Spec.perceptron
  simp only [hX, hW1, hb1, hW2, hb2]

theorem hz2 : (![0, 0] : Fin 2 → Nat) = fun _ => 0 := funext fun a => by fin_cases a <;> rfl
theorem hz1 : (![0] : Fin 1 → Nat) = fun _ => 0 := funext fun a => by fin_cases a <;> rfl

section
variable (m : (ℓ : Loc nD τ sig) → Buf (Elt Ideal) ℓ) (c : Dev nD)

/-! ## The arguments and the reference's stages over them -/

abbrev x0 : (⟨S50000x64, .f32⟩ : BufTy).Contents (Elt Ideal) := m ((c : Thread nD τ).loc main_arg0)
abbrev x1 : (⟨S2x1600000, .i32⟩ : BufTy).Contents (Elt Ideal) := m ((c : Thread nD τ).loc main_arg1)
abbrev x2 : (⟨S1600000x32, .f32⟩ : BufTy).Contents (Elt Ideal) := m ((c : Thread nD τ).loc main_arg2)
abbrev x3 : (⟨S160x128, .f32⟩ : BufTy).Contents (Elt Ideal) := m ((c : Thread nD τ).loc main_arg3)
abbrev x4 : (⟨S128, .f32⟩ : BufTy).Contents (Elt Ideal) := m ((c : Thread nD τ).loc main_arg4)
abbrev x5 : (⟨S128x64, .f32⟩ : BufTy).Contents (Elt Ideal) := m ((c : Thread nD τ).loc main_arg5)
abbrev x6 : (⟨S64, .f32⟩ : BufTy).Contents (Elt Ideal) := m ((c : Thread nD τ).loc main_arg6)
abbrev x7 : (⟨S128x128, .f32⟩ : BufTy).Contents (Elt Ideal) := m ((c : Thread nD τ).loc main_arg7)
abbrev x8 : (⟨S128, .f32⟩ : BufTy).Contents (Elt Ideal) := m ((c : Thread nD τ).loc main_arg8)
abbrev x9 : (⟨S128x64, .f32⟩ : BufTy).Contents (Elt Ideal) := m ((c : Thread nD τ).loc main_arg9)
abbrev x10 : (⟨S64, .f32⟩ : BufTy).Contents (Elt Ideal) := m ((c : Thread nD τ).loc main_arg10)

/-- The edge inputs: for each edge, its source node's features, its target node's features, its own attributes. -/
abbrev edgeRows : (⟨S1600000x160, .f32⟩ : BufTy).Contents (Elt Ideal) :=
  Cert.ReferenceIdeal.Read.val_main_v18 (F := Ideal) (x0 m c) (x1 m c) (x2 m c)
/-- The edge embedding: the perceptron of the edge inputs. -/
abbrev edgeEmb : (⟨S1600000x64, .f32⟩ : BufTy).Contents (Elt Ideal) :=
  Cert.ReferenceIdeal.Read.val_main_v27 (F := Ideal) (x0 m c) (x1 m c) (x2 m c) (x3 m c) (x4 m c) (x5 m c) (x6 m c)

/-! ## The edge stage's array -/

/-- The edge stage is entered with the edge inputs in its first window's array. -/
theorem edge_inputs : (edgeIn m c main_v18 : S1600000x160.Idx → EReal) = edgeRows m c := by
  show StableHlo.after hostOps0 (V0 m c) (Proc.devRef .tc main_v18) = _
  after_results
  rfl

/-- Where the edge stage's windows sit at grid point `t`, decided over the grid: the input rows and the output rows
    move one block per point; the weights and the biases stay. -/
theorem edge_idx : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = 0 ∧ win0_3.index t (1 : Fin 2) = 0 ∧ win0_4.index t (0 : Fin 1) = 0
    ∧ win0_5.index t (0 : Fin 2) = t.val ∧ win0_5.index t (1 : Fin 2) = 0 :=
  (by decide +kernel : ∀ t : Fin grid0.N, _)

/-- Row `p` of the input block at point `t` is row `6400 t + p` of the edge inputs. -/
theorem edge_x (t : Fin cfg0.N) (p : Fin 6400) (j : Fin 160) (hr : t.val * 6400 + p.val < 1600000) :
    Edge.blockAt (edgeIn m) c 0 t (ix2 p j) = edgeRows m c (ix2 ⟨t.val * 6400 + p.val, hr⟩ j) := by
  rw [← edge_inputs m c]
  show edgeIn m c main_v18 (((cfg0.win 0).blk t).view.emb (ix2 p j)) = _
  refine congrArg _ ?_
  obtain ⟨e0, e1, -⟩ := edge_idx t
  funext a; apply Fin.ext
  match a with
  | ⟨0, _⟩ => show win0_0.index t (0 : Fin 2) * 6400 + 1 * p.val = t.val * 6400 + p.val; omega
  | ⟨1, _⟩ => show win0_0.index t (1 : Fin 2) * 160 + 1 * j.val = j.val; omega

/-- The weight and bias blocks are the whole weight and bias arrays, which are arguments. -/
theorem edge_w1 (t : Fin cfg0.N) (j : Fin 160) (k : Fin 128) : Edge.blockAt (edgeIn m) c 1 t (ix2 j k) = x3 m c (ix2 j k) := by
  show edgeIn m c main_arg3 (((cfg0.win 1).blk t).view.emb (ix2 j k)) = _
  rw [first_stretch_keeps m c main_arg3 (by decide)]
  refine congrArg _ ?_
  obtain ⟨-, -, e2, e3, -⟩ := edge_idx t
  funext a; apply Fin.ext
  match a with
  | ⟨0, _⟩ => show win0_1.index t (0 : Fin 2) * 160 + 1 * j.val = j.val; omega
  | ⟨1, _⟩ => show win0_1.index t (1 : Fin 2) * 128 + 1 * k.val = k.val; omega
theorem edge_b1 (t : Fin cfg0.N) (k : Fin 128) : Edge.blockAt (edgeIn m) c 2 t (ix1 k) = x4 m c (ix1 k) := by
  show edgeIn m c main_arg4 (((cfg0.win 2).blk t).view.emb (ix1 k)) = _
  rw [first_stretch_keeps m c main_arg4 (by decide)]
  refine congrArg _ ?_
  obtain ⟨-, -, -, -, e4, -⟩ := edge_idx t
  funext a; apply Fin.ext
  match a with
  | ⟨0, _⟩ => show win0_2.index t (0 : Fin 1) * 128 + 1 * k.val = k.val; omega
theorem edge_w2 (t : Fin cfg0.N) (k : Fin 128) (o : Fin 64) : Edge.blockAt (edgeIn m) c 3 t (ix2 k o) = x5 m c (ix2 k o) := by
  show edgeIn m c main_arg5 (((cfg0.win 3).blk t).view.emb (ix2 k o)) = _
  rw [first_stretch_keeps m c main_arg5 (by decide)]
  refine congrArg _ ?_
  obtain ⟨-, -, -, -, -, e5, e6, -⟩ := edge_idx t
  funext a; apply Fin.ext
  match a with
  | ⟨0, _⟩ => show win0_3.index t (0 : Fin 2) * 128 + 1 * k.val = k.val; omega
  | ⟨1, _⟩ => show win0_3.index t (1 : Fin 2) * 64 + 1 * o.val = o.val; omega
theorem edge_b2 (t : Fin cfg0.N) (o : Fin 64) : Edge.blockAt (edgeIn m) c 4 t (ix1 o) = x6 m c (ix1 o) := by
  show edgeIn m c main_arg6 (((cfg0.win 4).blk t).view.emb (ix1 o)) = _
  rw [first_stretch_keeps m c main_arg6 (by decide)]
  refine congrArg _ ?_
  obtain ⟨-, -, -, -, -, -, -, e7, -⟩ := edge_idx t
  funext a; apply Fin.ext
  match a with
  | ⟨0, _⟩ => show win0_4.index t (0 : Fin 1) * 64 + 1 * o.val = o.val; omega

/-- What point `t` writes back is block `t` of the edge embedding. -/
theorem edge_flushed (t : Fin cfg0.N) :
    (Edge.record (edgeIn m) c).flushed 5 t = ((cfg0.win 5).blk t).view.read (Elt Ideal) (edgeEmb m c) := by
  show (cfg0.win 5).cut (grid0.coords t) ((Edge.record (edgeIn m) c).after 5 t) = _
  rw [Edge.after_5]
  unfold Edge.stored
  rw [View.canon_unit_zero hz2]
  simp only [View.ld_unit_zero (S := S6400x160) hz2, View.ld_unit_zero (S := S160x128) hz2, View.ld_unit_zero (S := S128) hz1,
    View.ld_unit_zero (S := S128x64) hz2, View.ld_unit_zero (S := S64) hz1]
  funext y
  obtain ⟨p, o, rfl⟩ : ∃ (p : Fin 6400) (o : Fin 64), y = ix2 p o := ⟨y 0, y 1, eq_ix2 y⟩
  have ht : t.val < 250 := lt_of_lt_of_eq t.isLt N_0
  have hr : t.val * 6400 + p.val < 1600000 := by have := p.isLt; omega
  refine (Cert.KernelPoint.edge_point _ _ _ _ _ p o).trans ?_
  have hemb : ((cfg0.win 5).blk t).view.emb (ix2 p o) = ix2 ⟨t.val * 6400 + p.val, hr⟩ o := by
    obtain ⟨-, -, -, -, -, -, -, -, e8, e9⟩ := edge_idx t
    funext a; apply Fin.ext
    match a with
    | ⟨0, _⟩ => show win0_5.index t (0 : Fin 2) * 6400 + 1 * p.val = t.val * 6400 + p.val; omega
    | ⟨1, _⟩ => show win0_5.index t (1 : Fin 2) * 64 + 1 * o.val = o.val; omega
  show _ = edgeEmb m c (((cfg0.win 5).blk t).view.emb (ix2 p o))
  rw [hemb]
  refine Eq.trans ?_ (Cert.RefPoint.edge_ref _ _ _ _ _ _ _ ⟨t.val * 6400 + p.val, hr⟩ o).symm
  exact perceptron_congr p ⟨t.val * 6400 + p.val, hr⟩ o (fun j => edge_x m c t p j hr) (fun j k => edge_w1 m c t j k)
    (fun k => edge_b1 m c t k) (fun k o => edge_w2 m c t k o) (fun o => edge_b2 m c t o)

/-- An entry of the output array lies in point `t`'s block when each coordinate lies in the block's range. -/
theorem edge_mem_blk (t : Fin cfg0.N) (i : S1600000x64.Idx) :
    i ∈ ((cfg0.win 5).blk t).view.set ↔ ∀ a : Fin 2, win0_5.index t a * S6400x64.size a ≤ (i a).val ∧ (i a).val < win0_5.index t a * S6400x64.size a + S6400x64.size a := by
  show i ∈ ((View.whole main_v19).slice (win0_5.rect t)).set ↔ _
  rw [View.set_slice_whole, Rect.mem_set_unit]
  exact Iff.rfl

/-- Every entry of the output array is written back by the point that holds its row. -/
theorem edge_cover (i : S1600000x64.Idx) : ∃ t : Fin cfg0.N, (cfg0.win 5).flush t = true ∧ i ∈ ((cfg0.win 5).blk t).view.set := by
  have hi0 : (i 0).val < 1600000 := (i 0).isLt
  have hi1 : (i 1).val < 64 := (i 1).isLt
  have hN : cfg0.N = 250 := N_0
  have hlt : (i 0).val / 6400 < cfg0.N := by rw [hN]; omega
  obtain ⟨-, -, -, -, -, -, -, -, e8, e9⟩ := edge_idx ⟨(i 0).val / 6400, hlt⟩
  refine ⟨⟨(i 0).val / 6400, hlt⟩, flush0_5 _, ?_⟩
  rw [edge_mem_blk]
  intro a
  match a with
  | ⟨0, _⟩ =>
    show win0_5.index ⟨(i 0).val / 6400, hlt⟩ (0 : Fin 2) * 6400 ≤ (i 0).val ∧ (i 0).val < win0_5.index ⟨(i 0).val / 6400, hlt⟩ (0 : Fin 2) * 6400 + 6400
    rw [e8]; show (i 0).val / 6400 * 6400 ≤ (i 0).val ∧ (i 0).val < (i 0).val / 6400 * 6400 + 6400; omega
  | ⟨1, _⟩ =>
    show win0_5.index ⟨(i 0).val / 6400, hlt⟩ (1 : Fin 2) * 64 ≤ (i 1).val ∧ (i 1).val < win0_5.index ⟨(i 0).val / 6400, hlt⟩ (1 : Fin 2) * 64 + 64
    rw [e9]; omega

/-- After the edge stage its output array holds the edge embedding. -/
theorem edge_array : (Edge.record (edgeIn m) c).arrAt 5 cfg0.N = edgeEmb m c :=
  (Edge.record (edgeIn m) c).arrAt_eq_of_cover 5 (edgeEmb m c) (fun t _ => edge_flushed m c t) (edge_cover)

/-! ## The node stage's array -/

/-- The node inputs: each node's features beside the sum of the embeddings of the edges leaving it. -/
abbrev nodeRows : (⟨S50000x128, .f32⟩ : BufTy).Contents (Elt Ideal) :=
  Cert.ReferenceIdeal.Read.val_main_v31 (F := Ideal) (x0 m c) (x1 m c) (x2 m c) (x3 m c) (x4 m c) (x5 m c) (x6 m c)
/-- The node embedding: the perceptron of the node inputs. -/
abbrev nodeEmb : (⟨S50000x64, .f32⟩ : BufTy).Contents (Elt Ideal) :=
  Cert.ReferenceIdeal.Read.val_main_v40 (F := Ideal) (x0 m c) (x1 m c) (x2 m c) (x3 m c) (x4 m c) (x5 m c) (x6 m c) (x7 m c) (x8 m c) (x9 m c) (x10 m c)

/-- The source-node column of the edge list, as the first host operations leave it. -/
theorem source_nodes : (edgeIn m c main_v1 : (⟨S1600000, .i32⟩ : BufTy).Contents (Elt Ideal)) = Cert.ReferenceIdeal.Read.val_main_v1 (F := Ideal) (x1 m c) := by
  show StableHlo.after hostOps0 (V0 m c) (Proc.devRef .tc main_v1) = _
  after_results
  rfl

/-- The node stage is entered with the node inputs in its first window's array: the host operations between the stages
    read the node features, the source-node column and the edge stage's output, which is the edge embedding. -/
theorem node_inputs : (nodeIn m c main_v23 : (⟨S50000x128, .f32⟩ : BufTy).Contents (Elt Ideal)) = nodeRows m c := by
  show StableHlo.after hostOps1 (afterEdge m c) (Proc.devRef .tc main_v23) = _
  after_results
  rw [show afterEdge m c (Proc.devRef .tc main_arg0) = x0 m c from (edge_keeps m c main_arg0 (by decide)).trans (first_stretch_keeps m c main_arg0 (by decide)),
    show afterEdge m c (Proc.devRef .tc main_v1) = Cert.ReferenceIdeal.Read.val_main_v1 (F := Ideal) (x1 m c) from (edge_keeps m c main_v1 (by decide)).trans (source_nodes m c),
    show afterEdge m c (Proc.devRef .tc main_v19) = edgeEmb m c from (afterEdge_arr m c 5).trans (edge_array m c)]
  rfl

/-- An argument that neither stretch of host operations writes reaches the node stage as launched. -/
theorem node_arg (b : Ref sig .tc) (h0 : b ∉ hostOps0_W) (h1 : b ∉ hostOps1_W) (h19 : b ≠ main_v19) : nodeIn m c b = m ((c : Thread nD τ).loc b) :=
  (second_stretch_keeps m c b h1).trans ((edge_keeps m c b h19).trans (first_stretch_keeps m c b h0))

/-- Where the node stage's windows sit at grid point `t`, decided over the grid: the input rows and the output rows
    move one block per point; the weights and the biases stay. -/
theorem node_idx : ∀ t : Fin cfg1.N, win1_0.index t (0 : Fin 2) = t.val ∧ win1_0.index t (1 : Fin 2) = 0
    ∧ win1_1.index t (0 : Fin 2) = 0 ∧ win1_1.index t (1 : Fin 2) = 0 ∧ win1_2.index t (0 : Fin 1) = 0
    ∧ win1_3.index t (0 : Fin 2) = 0 ∧ win1_3.index t (1 : Fin 2) = 0 ∧ win1_4.index t (0 : Fin 1) = 0
    ∧ win1_5.index t (0 : Fin 2) = t.val ∧ win1_5.index t (1 : Fin 2) = 0 :=
  (by decide +kernel : ∀ t : Fin grid1.N, _)

/-- Row `p` of the input block at point `t` is row `5000 t + p` of the node inputs. -/
theorem node_x (t : Fin cfg1.N) (p : Fin 5000) (j : Fin 128) (hr : t.val * 5000 + p.val < 50000) :
    Node.blockAt (nodeIn m) c 0 t (ix2 p j) = nodeRows m c (ix2 ⟨t.val * 5000 + p.val, hr⟩ j) := by
  rw [← node_inputs m c]
  show nodeIn m c main_v23 (((cfg1.win 0).blk t).view.emb (ix2 p j)) = _
  refine congrArg _ ?_
  obtain ⟨e0, e1, -⟩ := node_idx t
  funext a; apply Fin.ext
  match a with
  | ⟨0, _⟩ => show win1_0.index t (0 : Fin 2) * 5000 + 1 * p.val = t.val * 5000 + p.val; omega
  | ⟨1, _⟩ => show win1_0.index t (1 : Fin 2) * 128 + 1 * j.val = j.val; omega

/-- The weight and bias blocks are the whole weight and bias arrays, which are arguments. -/
theorem node_w1 (t : Fin cfg1.N) (j : Fin 128) (k : Fin 128) : Node.blockAt (nodeIn m) c 1 t (ix2 j k) = x7 m c (ix2 j k) := by
  show nodeIn m c main_arg7 (((cfg1.win 1).blk t).view.emb (ix2 j k)) = _
  rw [node_arg m c main_arg7 (by decide) (by decide) (by decide)]
  refine congrArg _ ?_
  obtain ⟨-, -, e2, e3, -⟩ := node_idx t
  funext a; apply Fin.ext
  match a with
  | ⟨0, _⟩ => show win1_1.index t (0 : Fin 2) * 128 + 1 * j.val = j.val; omega
  | ⟨1, _⟩ => show win1_1.index t (1 : Fin 2) * 128 + 1 * k.val = k.val; omega
theorem node_b1 (t : Fin cfg1.N) (k : Fin 128) : Node.blockAt (nodeIn m) c 2 t (ix1 k) = x8 m c (ix1 k) := by
  show nodeIn m c main_arg8 (((cfg1.win 2).blk t).view.emb (ix1 k)) = _
  rw [node_arg m c main_arg8 (by decide) (by decide) (by decide)]
  refine congrArg _ ?_
  obtain ⟨-, -, -, -, e4, -⟩ := node_idx t
  funext a; apply Fin.ext
  match a with
  | ⟨0, _⟩ => show win1_2.index t (0 : Fin 1) * 128 + 1 * k.val = k.val; omega
theorem node_w2 (t : Fin cfg1.N) (k : Fin 128) (o : Fin 64) : Node.blockAt (nodeIn m) c 3 t (ix2 k o) = x9 m c (ix2 k o) := by
  show nodeIn m c main_arg9 (((cfg1.win 3).blk t).view.emb (ix2 k o)) = _
  rw [node_arg m c main_arg9 (by decide) (by decide) (by decide)]
  refine congrArg _ ?_
  obtain ⟨-, -, -, -, -, e5, e6, -⟩ := node_idx t
  funext a; apply Fin.ext
  match a with
  | ⟨0, _⟩ => show win1_3.index t (0 : Fin 2) * 128 + 1 * k.val = k.val; omega
  | ⟨1, _⟩ => show win1_3.index t (1 : Fin 2) * 64 + 1 * o.val = o.val; omega
theorem node_b2 (t : Fin cfg1.N) (o : Fin 64) : Node.blockAt (nodeIn m) c 4 t (ix1 o) = x10 m c (ix1 o) := by
  show nodeIn m c main_arg10 (((cfg1.win 4).blk t).view.emb (ix1 o)) = _
  rw [node_arg m c main_arg10 (by decide) (by decide) (by decide)]
  refine congrArg _ ?_
  obtain ⟨-, -, -, -, -, -, -, e7, -⟩ := node_idx t
  funext a; apply Fin.ext
  match a with
  | ⟨0, _⟩ => show win1_4.index t (0 : Fin 1) * 64 + 1 * o.val = o.val; omega

/-- What point `t` writes back is block `t` of the node embedding. -/
theorem node_flushed (t : Fin cfg1.N) :
    (Node.record (nodeIn m) c).flushed 5 t = ((cfg1.win 5).blk t).view.read (Elt Ideal) (nodeEmb m c) := by
  show (cfg1.win 5).cut (grid1.coords t) ((Node.record (nodeIn m) c).after 5 t) = _
  rw [Node.after_5]
  unfold Node.stored
  rw [View.canon_unit_zero hz2]
  simp only [View.ld_unit_zero (S := S5000x128) hz2, View.ld_unit_zero (S := S128x128) hz2, View.ld_unit_zero (S := S128) hz1,
    View.ld_unit_zero (S := S128x64) hz2, View.ld_unit_zero (S := S64) hz1]
  funext y
  obtain ⟨p, o, rfl⟩ : ∃ (p : Fin 5000) (o : Fin 64), y = ix2 p o := ⟨y 0, y 1, eq_ix2 y⟩
  have ht : t.val < 10 := lt_of_lt_of_eq t.isLt N_1
  have hr : t.val * 5000 + p.val < 50000 := by have := p.isLt; omega
  refine (Cert.KernelPoint.node_point _ _ _ _ _ p o).trans ?_
  have hemb : ((cfg1.win 5).blk t).view.emb (ix2 p o) = ix2 ⟨t.val * 5000 + p.val, hr⟩ o := by
    obtain ⟨-, -, -, -, -, -, -, -, e8, e9⟩ := node_idx t
    funext a; apply Fin.ext
    match a with
    | ⟨0, _⟩ => show win1_5.index t (0 : Fin 2) * 5000 + 1 * p.val = t.val * 5000 + p.val; omega
    | ⟨1, _⟩ => show win1_5.index t (1 : Fin 2) * 64 + 1 * o.val = o.val; omega
  show _ = nodeEmb m c (((cfg1.win 5).blk t).view.emb (ix2 p o))
  rw [hemb]
  refine Eq.trans ?_ (Cert.RefPoint.node_ref _ _ _ _ _ _ _ _ _ _ _ ⟨t.val * 5000 + p.val, hr⟩ o).symm
  exact perceptron_congr p ⟨t.val * 5000 + p.val, hr⟩ o (fun j => node_x m c t p j hr) (fun j k => node_w1 m c t j k)
    (fun k => node_b1 m c t k) (fun k o => node_w2 m c t k o) (fun o => node_b2 m c t o)

/-- An entry of the output array lies in point `t`'s block when each coordinate lies in the block's range. -/
theorem node_mem_blk (t : Fin cfg1.N) (i : S50000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v24).slice (win1_5.rect t)).set ↔ _
  rw [View.set_slice_whole, Rect.mem_set_unit]
  exact Iff.rfl

/-- Every entry of the output array is written back by the point that holds its row. -/
theorem node_cover (i : S50000x64.Idx) : ∃ t : Fin cfg1.N, (cfg1.win 5).flush t = true ∧ i ∈ ((cfg1.win 5).blk t).view.set := by
  have hi0 : (i 0).val < 50000 := (i 0).isLt
  have hi1 : (i 1).val < 64 := (i 1).isLt
  have hN : cfg1.N = 10 := N_1
  have hlt : (i 0).val / 5000 < cfg1.N := by rw [hN]; omega
  obtain ⟨-, -, -, -, -, -, -, -, e8, e9⟩ := node_idx ⟨(i 0).val / 5000, hlt⟩
  refine ⟨⟨(i 0).val / 5000, hlt⟩, flush1_5 _, ?_⟩
  rw [node_mem_blk]
  intro a
  match a with
  | ⟨0, _⟩ =>
    show win1_5.index ⟨(i 0).val / 5000, hlt⟩ (0 : Fin 2) * 5000 ≤ (i 0).val ∧ (i 0).val < win1_5.index ⟨(i 0).val / 5000, hlt⟩ (0 : Fin 2) * 5000 + 5000
    rw [e8]; show (i 0).val / 5000 * 5000 ≤ (i 0).val ∧ (i 0).val < (i 0).val / 5000 * 5000 + 5000; omega
  | ⟨1, _⟩ =>
    show win1_5.index ⟨(i 0).val / 5000, hlt⟩ (1 : Fin 2) * 64 ≤ (i 1).val ∧ (i 1).val < win1_5.index ⟨(i 0).val / 5000, hlt⟩ (1 : Fin 2) * 64 + 64
    rw [e9]; omega

/-- After the node stage its output array holds the node embedding. -/
theorem node_array : (Node.record (nodeIn m) c).arrAt 5 cfg1.N = nodeEmb m c :=
  (Node.record (nodeIn m) c).arrAt_eq_of_cover 5 (nodeEmb m c) (fun t _ => node_flushed m c t) (node_cover)

/-! ## The result arrays at the end of the run -/

theorem out_edge : nodeOut m c main_v19 = edgeEmb m c :=
  (node_keeps m c main_v19 (by decide)).trans ((second_stretch_keeps m c main_v19 (by decide)).trans ((afterEdge_arr m c 5).trans (edge_array m c)))
theorem out_node : nodeOut m c main_v24 = nodeEmb m c := (afterNode_arr m c 5).trans (node_array m c)

end

/-- Every weakly fair execution of the idealized kernel program ends with the first result array at the edge embedding, the
    second at the node embedding, and every argument as launched. -/
theorem run_named (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v19) = edgeEmb m c
      ∧ r.2.mem ((c.tc : Thread nD τ).loc main_v24) = nodeEmb m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_v19 (by decide))).trans (out_edge m c), (h c _ (mem_uc main_v24 (by decide))).trans (out_node m c),
      (h c _ (mem_uc main_arg0 (by decide))).trans (kept_to_the_end m c main_arg0 (by decide) (by decide) (by decide) (by decide)),
      (h c _ (mem_uc main_arg1 (by decide))).trans (kept_to_the_end m c main_arg1 (by decide) (by decide) (by decide) (by decide)),
      (h c _ (mem_uc main_arg2 (by decide))).trans (kept_to_the_end m c main_arg2 (by decide) (by decide) (by decide) (by decide)),
      (h c _ (mem_uc main_arg3 (by decide))).trans (kept_to_the_end m c main_arg3 (by decide) (by decide) (by decide) (by decide)),
      (h c _ (mem_uc main_arg4 (by decide))).trans (kept_to_the_end m c main_arg4 (by decide) (by decide) (by decide) (by decide)),
      (h c _ (mem_uc main_arg5 (by decide))).trans (kept_to_the_end m c main_arg5 (by decide) (by decide) (by decide) (by decide)),
      (h c _ (mem_uc main_arg6 (by decide))).trans (kept_to_the_end m c main_arg6 (by decide) (by decide) (by decide) (by decide)),
      (h c _ (mem_uc main_arg7 (by decide))).trans (kept_to_the_end m c main_arg7 (by decide) (by decide) (by decide) (by decide)),
      (h c _ (mem_uc main_arg8 (by decide))).trans (kept_to_the_end m c main_arg8 (by decide) (by decide) (by decide) (by decide)),
      (h c _ (mem_uc main_arg9 (by decide))).trans (kept_to_the_end m c main_arg9 (by decide) (by decide) (by decide) (by decide)),
      (h c _ (mem_uc main_arg10 (by decide))).trans (kept_to_the_end m c main_arg10 (by decide) (by decide) (by decide) (by decide))⟩)
    (run_all m ρ)

end Cert.KernelIdeal.Final

end
-- ==== Proof.lean ====
/-
  A graph layer as two kernels: a two-layer perceptron over the rows of the edge inputs (for each edge, its source
  node's features, its target node's features and its own attributes, gathered and joined by host operations), and a
  second one over the rows of the node inputs (each node's features beside the sum of the embeddings of the edges
  leaving it, summed and joined by host operations). Each kernel works through its rows in blocks; the reference
  applies the same perceptrons to the whole arrays at once.

  Both kernel programs run to the end, fault nowhere and leave their arguments as launched: the run is followed item
  by item, with every buffer's value named between items. The reference's frame is its run with the results dropped.
  The idealized kernel is the kernel's own text read over the extended reals, so nothing is owed for the
  idealization. Over the extended reals the kernel program's two result arrays are the reference's edge embedding and
  node embedding, entry by entry: the reference's own stages are the witnesses, the kernel side is the run read at the
  two result arrays, and the reference side is its run with the arguments' agreement rewritten.
-/
import proofs.«146063_j29343216566653_1_alg».proof.Defs
import proofs.«146063_j29343216566653_1_alg».proof.Proof.WholeW
import proofs.«146063_j29343216566653_1_alg».proof.Proof.Final
import proofs.«146063_j29343216566653_1_alg».proof.Proof.Gen.Kernel
import proofs.«146063_j29343216566653_1_alg».proof.Proof.Gen.KernelIdeal
import proofs.«146063_j29343216566653_1_alg».proof.Proof.Gen.ReferenceIdeal
import proofs.«146063_j29343216566653_1_alg».proof.Proof.Gen.Pre_finite_inputs
import proofs.«146063_j29343216566653_1_alg».proof.Proof.Gen.ReferenceIdeal.Run
import proofs.«146063_j29343216566653_1_alg».proof.Proof.Gen.ReferenceIdeal.Read
import Idealize.ShloMosaic.Adequacy
import Idealize.ShloMosaic.Init

noncomputable section

namespace Cert.Proof

open Idealize.ShloMosaic Idealize.SL.Sem

theorem frame_kernel : Cert.frame_Kernel := fun m ρ _ => Cert.Kernel.Whole.frame m ρ

theorem frame_ideal : Cert.frame_KernelIdeal := fun m ρ _ => Cert.KernelIdeal.Whole.frame m ρ

theorem frame_reference : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- From memories that agree on the arguments, the idealized kernel program ends with its result arrays at the edge
    embedding and the node embedding of ITS arguments, and the reference ends with its result arrays at the same two
    stages of its own arguments, which are the same arrays. -/
theorem algebraic : Cert.algebraic_KernelIdeal_ReferenceIdeal := by
  intro m ρ m' ρ' _ hagree
  refine ⟨fun c => Cert.KernelIdeal.Final.edgeEmb m c, fun c => Cert.KernelIdeal.Final.nodeEmb m c,
    Cert.KernelIdeal.Final.run_named m ρ, ?_⟩
  refine (θ_run Cert.ReferenceIdeal.defs _ _).mono (fun _ h c => ?_) (Cert.ReferenceIdeal.Value.run (F := Ideal) m' ρ')
  obtain ⟨h27, h40, hargs⟩ := h c
  obtain ⟨a0, a1, a2, a3, a4, a5, a6, a7, a8, a9, a10⟩ := hagree c
  refine ⟨?_, ?_, hargs⟩
  · rw [h27, Cert.ReferenceIdeal.Read.val_main_v27_eq, a0, a1, a2, a3, a4, a5, a6]
  · rw [h40, Cert.ReferenceIdeal.Read.val_main_v40_eq, a0, a1, a2, a3, a4, a5, a6, a7, a8, a9, a10]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
